-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S128 : Shape := ⟨1, ![128]⟩
abbrev S640000 : Shape := ⟨1, ![640000]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128 : S_.BroadcastsInDim S128 (![] : Fin 0 → Fin S128.rank)
  reducesTo_S128_S_d0 : S128.ReducesTo [0] S_
  bcast_S_S640000 : S_.BroadcastsInDim S640000 (![] : Fin 0 → Fin S640000.rank)
  reducesTo_S640000_S_d0 : S640000.ReducesTo [0] S_

variable [Facts]

def fn_part1 {F : FTy → Type} [FloatOps F] (main_arg3 : IVec S640000 32) (main_arg4 : IVec S640000 32) (main_v13 : IVec S_ 1) (main_v15 : IVec S640000 1) (main_c_5 : IVec S_ 1) : IVec S_ 1 :=
  let main_v16 : IVec S_ 1 := (fun x v => Host.reduce IntOp.andi x v reducesTo_S640000_S_d0 h_S_) main_v15 main_c_5
  let main_v17 : IVec S_ 1 := andi main_v13 main_v16
  let main_c_6 : IVec S_ 32 := constantI S_ 32 10000#32
  let main_v18 : IVec S640000 32 := broadcastInDim S640000 ![] bcast_S_S640000 main_c_6
  let main_v19 : IVec S640000 1 := cmpi .slt main_arg3 main_v18
  let main_c_7 : IVec S_ 1 := constantI S_ 1 1#1
  let main_v20 : IVec S_ 1 := (fun x v => Host.reduce IntOp.andi x v reducesTo_S640000_S_d0 h_S_) main_v19 main_c_7
  let main_v21 : IVec S_ 1 := andi main_v17 main_v20
  let main_c_8 : IVec S_ 32 := constantI S_ 32 0#32
  let main_v22 : IVec S640000 32 := broadcastInDim S640000 ![] bcast_S_S640000 main_c_8
  let main_v23 : IVec S640000 1 := cmpi .sge main_arg4 main_v22
  let main_c_9 : IVec S_ 1 := constantI S_ 1 1#1
  let main_v24 : IVec S_ 1 := (fun x v => Host.reduce IntOp.andi x v reducesTo_S640000_S_d0 h_S_) main_v23 main_c_9
  let main_v25 : IVec S_ 1 := andi main_v21 main_v24
  main_v25

def fn {F : FTy → Type} [FloatOps F] (main_arg0 : FVec F S10000x128 .f32) (main_arg1 : FVec F S128 .f32) (main_arg2 : FVec F S640000 .f32) (main_arg3 : IVec S640000 32) (main_arg4 : IVec S640000 32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128 .f32 := Host.absf main_arg1
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S640000 .f32 := Host.absf main_arg2
  let main_cst_2 : FVec F S_ .f32 := constant S_ .f32 0x7F800000#32
  let main_v10 : FVec F S640000 .f32 := broadcastInDim S640000 ![] bcast_S_S640000 main_cst_2
  let main_v11 : IVec S640000 1 := cmpf .olt main_v9 main_v10
  let main_c_3 : IVec S_ 1 := constantI S_ 1 1#1
  let main_v12 : IVec S_ 1 := (fun x v => Host.reduce IntOp.andi x v reducesTo_S640000_S_d0 h_S_) main_v11 main_c_3
  let main_v13 : IVec S_ 1 := andi main_v8 main_v12
  let main_c_4 : IVec S_ 32 := constantI S_ 32 0#32
  let main_v14 : IVec S640000 32 := broadcastInDim S640000 ![] bcast_S_S640000 main_c_4
  let main_v15 : IVec S640000 1 := cmpi .sge main_arg3 main_v14
  let main_c_5 : IVec S_ 1 := constantI S_ 1 1#1
  fn_part1 (F := F) main_arg3 main_arg4 main_v13 main_v15 main_c_5
-- ==== Kernel.lean ====
abbrev S10000x128 : Shape := ⟨2, ![10000, 128]⟩
abbrev S128 : Shape := ⟨1, ![128]⟩
abbrev S640000 : Shape := ⟨1, ![640000]⟩
abbrev S_ : Shape := ⟨0, ![]⟩
abbrev S10240x10240 : Shape := ⟨2, ![10240, 10240]⟩
abbrev S640000x1 : Shape := ⟨2, ![640000, 1]⟩
abbrev S640000x2 : Shape := ⟨2, ![640000, 2]⟩
abbrev S1x128 : Shape := ⟨2, ![1, 128]⟩
abbrev S10240x128 : Shape := ⟨2, ![10240, 128]⟩
abbrev S1 : Shape := ⟨1, ![1]⟩
abbrev S1024x5120 : Shape := ⟨2, ![1024, 5120]⟩
abbrev S1024x128 : Shape := ⟨2, ![1024, 128]⟩
abbrev S5120x128 : Shape := ⟨2, ![5120, 128]⟩

abbrev nBuf : Space → Nat
  | .hbm => 37
  | .vmem => 6
  | .smem => 0
  | _ => 0

abbrev bufTy : (tb : Table) → Fin (tcTables nBuf tb) → BufTy
  | .hbm, ⟨0, _⟩ => ⟨S10000x128, .f32⟩
  | .hbm, ⟨1, _⟩ => ⟨S128, .f32⟩
  | .hbm, ⟨2, _⟩ => ⟨S640000, .f32⟩
  | .hbm, ⟨3, _⟩ => ⟨S640000, .i32⟩
  | .hbm, ⟨4, _⟩ => ⟨S640000, .i32⟩
  | .hbm, ⟨5, _⟩ => ⟨S_, .f32⟩
  | .hbm, ⟨6, _⟩ => ⟨S10240x10240, .f32⟩
  | .hbm, ⟨7, _⟩ => ⟨S_, .i32⟩
  | .hbm, ⟨8, _⟩ => ⟨S640000, .i32⟩
  | .hbm, ⟨9, _⟩ => ⟨S640000, .i1⟩
  | .hbm, ⟨10, _⟩ => ⟨S_, .i32⟩
  | .hbm, ⟨11, _⟩ => ⟨S640000, .i32⟩
  | .hbm, ⟨12, _⟩ => ⟨S640000, .i32⟩
  | .hbm, ⟨13, _⟩ => ⟨S640000, .i32⟩
  | .hbm, ⟨14, _⟩ => ⟨S_, .i32⟩
  | .hbm, ⟨15, _⟩ => ⟨S640000, .i32⟩
  | .hbm, ⟨16, _⟩ => ⟨S640000, .i1⟩
  | .hbm, ⟨17, _⟩ => ⟨S_, .i32⟩
  | .hbm, ⟨18, _⟩ => ⟨S640000, .i32⟩
  | .hbm, ⟨19, _⟩ => ⟨S640000, .i32⟩
  | .hbm, ⟨20, _⟩ => ⟨S640000, .i32⟩
  | .hbm, ⟨21, _⟩ => ⟨S640000x1, .i32⟩
  | .hbm, ⟨22, _⟩ => ⟨S640000x1, .i32⟩
  | .hbm, ⟨23, _⟩ => ⟨S640000x2, .i32⟩
  | .hbm, ⟨24, _⟩ => ⟨S10240x10240, .f32⟩
  | .hbm, ⟨25, _⟩ => ⟨S10240x10240, .bf16⟩
  | .hbm, ⟨26, _⟩ => ⟨S1x128, .f32⟩
  | .hbm, ⟨27, _⟩ => ⟨S10000x128, .f32⟩
  | .hbm, ⟨28, _⟩ => ⟨S10000x128, .f32⟩
  | .hbm, ⟨29, _⟩ => ⟨S10000x128, .bf16⟩
  | .hbm, ⟨30, _⟩ => ⟨S_, .bf16⟩
  | .hbm, ⟨31, _⟩ => ⟨S10240x128, .bf16⟩
  | .hbm, ⟨32, _⟩ => ⟨S_, .i32⟩
  | .hbm, ⟨33, _⟩ => ⟨S1, .i32⟩
  | .hbm, ⟨34, _⟩ => ⟨S10240x128, .bf16⟩
  | .hbm, ⟨35, _⟩ => ⟨S10240x128, .f32⟩
  | .hbm, ⟨36, _⟩ => ⟨S10000x128, .f32⟩
  | .local _ .vmem, ⟨0, _⟩ => ⟨S1024x5120, .bf16⟩
  | .local _ .vmem, ⟨1, _⟩ => ⟨S1024x5120, .bf16⟩
  | .local _ .vmem, ⟨2, _⟩ => ⟨S10240x128, .bf16⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_c_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![10, 2], ![false, false]⟩

def k0_mult1 (i : grid0.Coords) : BitVec 32 :=
  let arg1 : BitVec 32 := BitVec.ofNat 32 (i 1).val
  let c5120_i32 : BitVec 32 := 5120#32
  let v3 : BitVec 32 := Scalar.muli arg1 c5120_i32
  v3
def k0_off1 (i : grid0.Coords) : Fin 2 → Nat :=
  let arg1 : BitVec 32 := BitVec.ofNat 32 (i 1).val
  let c5120_i32 : BitVec 32 := 5120#32
  let v3 : BitVec 32 := Scalar.muli arg1 c5120_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c1_i32 : BitVec 32 := 1#32
  let v16 : BitVec 1 := Scalar.cmpi .eq arg1 c1_i32
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S10240x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S10240x10240 : S_.BroadcastsInDim S10240x10240 (![] : Fin 0 → Fin S10240x10240.rank)
  bcast_S_S640000 : S_.BroadcastsInDim S640000 (![] : Fin 0 → Fin S640000.rank)
  bcast_S640000_S640000x1_0 : S640000.BroadcastsInDim S640000x1 (![0] : Fin 1 → Fin S640000x1.rank)
  concatenates_S640000x1_S640000x1_S640000x2_d1 : Shape.Concatenates [S640000x1, S640000x1] S640000x2 1
  bitsLt_bf16_f32 : FTy.bits .bf16 < FTy.bits .f32
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10240x128 : S_.BroadcastsInDim S10240x128 (![] : Fin 0 → Fin S10240x128.rank)
  bcast_S_S1 : S_.BroadcastsInDim S1 (![] : Fin 0 → Fin S1.rank)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  h_S5120x128 : 0 < S5120x128.numel
  shapeCasts_S5120x128_S5120x128 : S5120x128.ShapeCasts S5120x128
  inb_S1024x5120_S1024x5120_0_0 : ∀ a, (![0, 0] : Fin 2 → Nat) a + S1024x5120.size a ≤ S1024x5120.size a
  h_S1024x5120 : 0 < S1024x5120.numel
  shapeCasts_S1024x5120_S1024x5120 : S1024x5120.ShapeCasts S1024x5120
  slices_S10240x128_S10000x128_0_0 : S10240x128.Slices ![0, 0] S10000x128
  scatter_S10240x10240_S640000x2_S640000_n_01_01_1_wf : ScatterDims.WF S10240x10240 S640000x2 S640000 [] [0, 1] [0, 1] 1
  scatter_S10240x128_S1_S10000x128_01_n_0_0_wf : ScatterDims.WF S10240x128 S1 S10000x128 [0, 1] [] [0] 0
  dot_S1024x5120_S5120x128_S1024x128_1_0_0_1_n_n_wf : DotDims.WF S1024x5120 S5120x128 S1024x128 [1] [0] [0] [1] [] []
  hrank0 : 0 < grid0.rank
  k0_mult1_dvd : ∀ i : grid0.Coords, 5120 ∣ (k0_mult1 i).toNat
  k0_off1_inb : ∀ i : grid0.Coords, ∀ a, (k0_off1 i) a + S5120x128.size a ≤ S10240x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x5120.size a ≤ S10240x10240.size a
  hwx0_0 : ∀ i : grid0.Coords, EltTy.bits .bf16 = 32 ∨ (Rect.block (s := S10240x10240) S1024x5120.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10240x128.size a ≤ S10240x128.size a
  hwx0_1 : ∀ i : grid0.Coords, EltTy.bits .bf16 = 32 ∨ (Rect.block (s := S10240x128) S10240x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S10240x128.size a
  hwx0_2 : ∀ i : grid0.Coords, EltTy.bits .f32 = 32 ∨ (Rect.block (s := S10240x128) S1024x128.size (cc0_transform_2 i) (hinb0_2 i)).WholeWords (EltTy.packing .f32)

variable [Facts₀]

def scatter_S10240x10240_S640000x2_S640000_n_01_01_1 : ScatterDims S10240x10240 S640000x2 S640000 where
  updateWindowDims := []
  insertedWindowDims := [0, 1]
  scatterDimsToOperandDims := [0, 1]
  indexVectorDim := 1
  wf := scatter_S10240x10240_S640000x2_S640000_n_01_01_1_wf
def scatter_S10240x128_S1_S10000x128_01_n_0_0 : ScatterDims S10240x128 S1 S10000x128 where
  updateWindowDims := [0, 1]
  insertedWindowDims := []
  scatterDimsToOperandDims := [0]
  indexVectorDim := 0
  wf := scatter_S10240x128_S1_S10000x128_01_n_0_0_wf
def dot_S1024x5120_S5120x128_S1024x128_1_0_0_1_n_n : DotDims S1024x5120 S5120x128 S1024x128 where
  lhsContracting := [1]
  rhsContracting := [0]
  lhsNonContracting := [0]
  rhsNonContracting := [1]
  lhsBatch := []
  rhsBatch := []
  wf := dot_S1024x5120_S5120x128_S1024x128_1_0_0_1_n_n_wf

abbrev win0_0 : Pipeline.Window sig grid0 :=
  Pipeline.Window.ofSpec (Memref.whole main_v15) S1024x5120.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S10240x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S10000x128 : Shape := ⟨2, ![10000, 128]⟩
abbrev S128 : Shape := ⟨1, ![128]⟩
abbrev S640000 : Shape := ⟨1, ![640000]⟩
abbrev S1x128 : Shape := ⟨2, ![1, 128]⟩
abbrev S_ : Shape := ⟨0, ![]⟩
abbrev S640000x1 : Shape := ⟨2, ![640000, 1]⟩
abbrev S640000x128 : Shape := ⟨2, ![640000, 128]⟩

abbrev nBuf : Space → Nat
  | .hbm => 24
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S128, .f32⟩
  | .hbm, ⟨2, _⟩ => ⟨S640000, .f32⟩
  | .hbm, ⟨3, _⟩ => ⟨S640000, .i32⟩
  | .hbm, ⟨4, _⟩ => ⟨S640000, .i32⟩
  | .hbm, ⟨5, _⟩ => ⟨S1x128, .f32⟩
  | .hbm, ⟨6, _⟩ => ⟨S10000x128, .f32⟩
  | .hbm, ⟨7, _⟩ => ⟨S10000x128, .f32⟩
  | .hbm, ⟨8, _⟩ => ⟨S_, .i32⟩
  | .hbm, ⟨9, _⟩ => ⟨S640000, .i32⟩
  | .hbm, ⟨10, _⟩ => ⟨S640000, .i1⟩
  | .hbm, ⟨11, _⟩ => ⟨S_, .i32⟩
  | .hbm, ⟨12, _⟩ => ⟨S640000, .i32⟩
  | .hbm, ⟨13, _⟩ => ⟨S640000, .i32⟩
  | .hbm, ⟨14, _⟩ => ⟨S640000, .i32⟩
  | .hbm, ⟨15, _⟩ => ⟨S640000x1, .i32⟩
  | .hbm, ⟨16, _⟩ => ⟨S640000x128, .f32⟩
  | .hbm, ⟨17, _⟩ => ⟨S640000x1, .f32⟩
  | .hbm, ⟨18, _⟩ => ⟨S640000x128, .f32⟩
  | .hbm, ⟨19, _⟩ => ⟨S640000x128, .f32⟩
  | .hbm, ⟨20, _⟩ => ⟨S_, .f32⟩
  | .hbm, ⟨21, _⟩ => ⟨S10000x128, .f32⟩
  | .hbm, ⟨22, _⟩ => ⟨S640000x1, .i32⟩
  | .hbm, ⟨23, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S640000 : S_.BroadcastsInDim S640000 (![] : Fin 0 → Fin S640000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S10000x128 : S_.BroadcastsInDim S10000x128 (![] : Fin 0 → Fin S10000x128.rank)
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf

class Facts : Prop extends Facts₀ where

variable [Facts]
-- ==== Proof.RefRead.lean ====
/-
  The reference program's run and its stages, one host operation at a time, gathered for the modules that
  read the reference's result at an index.
-/
import proofs.«431183_j73469710566062_3_alg».proof.Proof.Gen.ReferenceIdeal.Run
import proofs.«431183_j73469710566062_3_alg».proof.Proof.Gen.ReferenceIdeal.Read
-- ==== Proof.Spec.lean ====
/-
  A graph convolution with a diagonal feature scale, written two ways.

  Nodes carry feature rows x[n, ·]; every feature f is scaled by W[f]; an edge e carries a weight wt[e] and
  runs from node src[e] to node dst[e]. The layer's result at node d and feature f is the sum, over the edges
  that end at d, of wt[e] times the scaled feature of the edge's source node:

      G[d, f] = ∑_{e : dst[e] = d} (x[src[e], f] · W[f]) · wt[e].

  The same map as a dense product: the edges are first accumulated into a square matrix padded to 10240 rows and
  columns, Adj[r, c] = ∑_{e : dst[e] = r, src[e] = c} wt[e]; the scaled features are padded with zero rows to
  10240 nodes; and the product over the padded node axis is taken in two halves of 5120 columns each.

  This file fixes the vocabulary (index words read as signed integers, the wrap of a negative word, the clamp of
  a word into the node range) and states both forms; the other files prove that each program computes one of them
  and that the two agree on the domain on which index words name nodes.
-/
import Idealize.ShloMosaic.PureOps.Ideal
import Idealize.ShloMosaic.Lib.ValueIdx

noncomputable section

open scoped BigOperators

namespace Cert.Spec

open Idealize.ShloMosaic Idealize.ShloMosaic.ValueIdx

/-- A vector of extended reals. -/
abbrev A1 (n : Nat) : Type := (⟨1, ![n]⟩ : Shape).Idx → EReal
/-- A matrix of extended reals. -/
abbrev A2 (a b : Nat) : Type := (⟨2, ![a, b]⟩ : Shape).Idx → EReal
/-- A vector of 32-bit index words. -/
abbrev W1 (n : Nat) : Type := IVec ⟨1, ![n]⟩ 32

/-- An index word counted from the end of an axis of extent N when it is negative: the extent is added. -/
def norm (N : Nat) (w : BitVec 32) : BitVec 32 := if w.slt 0#32 then w + BitVec.ofNat 32 N else w

/-- The node an index word names once it is read signed and clamped into the node range. -/
def node (w : BitVec 32) : Fin 10000 := ⟨min w.toInt.toNat 9999, by omega⟩

/-- The layer at node d and feature f: the weighted scaled source features of the edges ending at d. -/
def Gat (x : A2 10000 128) (W : A1 128) (wt : A1 640000) (src dst : W1 640000) (d : Fin 10000) (f : Fin 128) : EReal :=
  ∑ e ∈ Finset.univ.filter (fun e : Fin 640000 => (dst (ix1 e)).toInt = (d.val : ℤ)),
    (x (ix2 (node (src (ix1 e))) f) * W (ix1 f)) * wt (ix1 e)

/-- The layer as an array. -/
def G (x : A2 10000 128) (W : A1 128) (wt : A1 640000) (src dst : W1 640000) : A2 10000 128 :=
  fun i => Gat x W wt src dst (i 0) (i 1)

/-- A node as a row of the padded arrays. -/
def up (d : Fin 10000) : Fin 10240 := ⟨d.val, by have := d.isLt; omega⟩
/-- Column k of the first half of the padded node axis. -/
def lo (k : Fin 5120) : Fin 10240 := ⟨k.val, by have := k.isLt; omega⟩
/-- Column k of the second half of the padded node axis. -/
def hi (k : Fin 5120) : Fin 10240 := ⟨5120 + k.val, by have := k.isLt; omega⟩

/-- The padded dense adjacency: entry (r, c) collects the weights of the edges whose wrapped destination word is r
    and whose wrapped source word is c. -/
def AdjAt (wt : A1 640000) (src dst : W1 640000) (r c : Fin 10240) : EReal :=
  ∑ e ∈ Finset.univ.filter (fun e : Fin 640000 =>
      (norm 10240 (dst (ix1 e))).toInt = (r.val : ℤ) ∧ (norm 10240 (src (ix1 e))).toInt = (c.val : ℤ)),
    wt (ix1 e)

/-- The padded dense adjacency as an array. -/
def Adj (wt : A1 640000) (src dst : W1 640000) : A2 10240 10240 := fun i => AdjAt wt src dst (i 0) (i 1)

/-- The scaled features padded with zero rows: row r is x[r, ·] · W for a node r and zero past the nodes. -/
def XsPadAt (x : A2 10000 128) (W : A1 128) (r : Fin 10240) (f : Fin 128) : EReal :=
  if h : r.val < 10000 then x (ix2 (⟨r.val, h⟩ : Fin 10000) f) * W (ix1 f) else 0

/-- The padded scaled features as an array. -/
def XsPad (x : A2 10000 128) (W : A1 128) : A2 10240 128 := fun i => XsPadAt x W (i 0) (i 1)

/-- The dense form of the layer at node d and feature f: the product over the padded node axis, first half then
    second half. -/
def Kat (x : A2 10000 128) (W : A1 128) (wt : A1 640000) (src dst : W1 640000) (d : Fin 10000) (f : Fin 128) : EReal :=
  (∑ k : Fin 5120, AdjAt wt src dst (up d) (lo k) * XsPadAt x W (lo k) f)
    + ∑ k : Fin 5120, AdjAt wt src dst (up d) (hi k) * XsPadAt x W (hi k) f

/-- The dense form as an array. -/
def K (x : A2 10000 128) (W : A1 128) (wt : A1 640000) (src dst : W1 640000) : A2 10000 128 :=
  fun i => Kat x W wt src dst (i 0) (i 1)

/-- The domain on which the two forms agree: features, scales and weights are real numbers, every source word
    names a node, and no destination word is negative. (A destination word past the nodes names no row of either
    form: both drop that edge.) -/
structure Dom (x : A2 10000 128) (W : A1 128) (wt : A1 640000) (src dst : W1 640000) : Prop where
  x_real : ∀ i, ∃ r : ℝ, x i = (r : EReal)
  W_real : ∀ i, ∃ r : ℝ, W i = (r : EReal)
  wt_real : ∀ i, ∃ r : ℝ, wt i = (r : EReal)
  src_lo : ∀ i, 0 ≤ (src i).toInt
  src_hi : ∀ i, (src i).toInt < 10000
  dst_lo : ∀ i, 0 ≤ (dst i).toInt

end Cert.Spec

end
-- ==== Proof.LibDot.lean ====
/-
  A matrix product with one contracted axis, read at one element of its result.

  A product of a rank-2 left operand and a rank-2 right operand with a single contracted axis on each side and
  no batch axis is, at an output position, the sum over the contracted coordinate of the two operands' entries
  there. The file states this for the three arrangements of axes a dense layer meets: rows by columns
  (left contracted on axis 1, right on axis 0), a left operand contracted on its FIRST axis against a right
  operand contracted on its last (the product written transposed), and both operands contracted on their first
  axis. Each lemma is generic in the extents and takes the dimension record's lists as hypotheses, which a
  printed record supplies by rfl.
-/
import Idealize.ShloMosaic.PureOps.Ideal
import Idealize.ShloMosaic.PureOps.Ideal.Laws
import Idealize.ShloMosaic.Lib.ValueIdx

open scoped BigOperators

namespace Cert.Lib.Dot

open Idealize.ShloMosaic
open Idealize.ShloMosaic.ValueIdx

variable {sl sr so : Shape} (d : DotDims sl sr so)

/-- Two reads of an index at positions with equal values agree. -/
theorem idx_val_congr {s : Shape} (j : s.Idx) (p q : Nat) (hp : p < s.rank) (hq : q < s.rank) (h : p = q) :
    (j ⟨p, hp⟩).val = (j ⟨q, hq⟩).val := by subst h; rfl

/-- With no batch axis and one kept left axis, the left operand's index on that axis is the result's first
    coordinate. -/
theorem lhsIdx_val_kept {nl : Fin sl.rank} (hb : d.lhsBatch = []) (hn : d.lhsNonContracting = [nl])
    (j : so.Idx) (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  exact idx_val_congr j _ _ _ _ (by simp [hb, hn])

/-- With no batch axis, one kept left axis and one kept right axis, the right operand's index on its kept axis
    is the result's second coordinate. -/
theorem rhsIdx_val_kept {nl : Fin sl.rank} {nr : Fin sr.rank} (hlb : d.lhsBatch = []) (hrb : d.rhsBatch = [])
    (hln : d.lhsNonContracting = [nl]) (hrn : d.rhsNonContracting = [nr])
    (j : so.Idx) (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hrn]; exact List.mem_singleton.mpr rfl
  unfold DotDims.rhsIdx
  rw [dif_neg hnb, dif_pos hmem]
  simp only [Fin.val_cast]
  exact idx_val_congr j _ _ _ _ (by simp [hlb, hln, hrn])

/-- One contracted axis: the contraction shape has rank one. -/
theorem contr_rank_one {cl : Fin sl.rank} (hc : d.lhsContracting = [cl]) : d.contr.rank = 1 := by
  rw [d.rank_contr, hc]; rfl

/-- One contracted axis: the contraction shape's extent is the left operand's extent on that axis. -/
theorem contr_size_one {cl : Fin sl.rank} (hc : d.lhsContracting = [cl]) :
    d.contr.size ⟨0, by rw [contr_rank_one d hc]; exact Nat.one_pos⟩ = sl.size cl := by
  have h := d.size_contr 0 (by rw [hc]; exact Nat.one_pos)
  rw [h]
  exact congrArg sl.size (by simp [hc])

/-! ## The three arrangements, as sums over the contracted coordinate -/

section Arrangements

open Cert.Lib.Dot

/-- Rows by columns: the left operand [M, K] contracted on axis 1, the right [K, N] on axis 0. -/
theorem sum_rows_cols {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ φ₁) (r : FVec Ideal ⟨2, ![K, N]⟩ φ₂) (p : Fin M) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank_one d hlc) (contr_size_one d hlc)).symm]
  refine Finset.sum_congr rfl fun k _ => ?_
  have e1 : d.lhsIdx (ix2 p q) ((contrEquiv1 d K (contr_rank_one d hlc) (contr_size_one d hlc)).symm k) = ix2 p k := by
    funext a; refine Fin.ext ?_
    match a with
    | ⟨0, _⟩ => exact lhsIdx_val_kept d hlb hln _ _ Nat.zero_lt_two
    | ⟨1, _⟩ => exact (d.lhsIdx_val_of_single hlc _ _).trans (contrEquiv1_symm_val d K _ _ k)
  have e2 : d.rhsIdx (ix2 p q) ((contrEquiv1 d K (contr_rank_one d hlc) (contr_size_one d hlc)).symm k) = ix2 k q := by
    funext a; refine Fin.ext ?_
    match a with
    | ⟨0, _⟩ => exact (d.rhsIdx_val_of_single hrc _ _).trans (contrEquiv1_symm_val d K _ _ k)
    | ⟨1, _⟩ => exact rhsIdx_val_kept d hlb hrb hln hrn _ _ Nat.one_lt_two
  rw [e1, e2]

/-- The product written transposed: the left operand [K, M] contracted on axis 0, the right [N, K] on axis 1;
    the result is [M, N]. -/
theorem sum_cols_rows {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (l : FVec Ideal ⟨2, ![K, M]⟩ φ₁) (r : FVec Ideal ⟨2, ![N, K]⟩ φ₂) (p : Fin M) (q : Fin N) :
    ∑ k : d.contr.Idx, l (d.lhsIdx (ix2 p q) k) * r (d.rhsIdx (ix2 p q) k) = ∑ k : Fin K, l (ix2 k p) * r (ix2 q k) := by
  rw [← Equiv.sum_comp (contrEquiv1 d K (contr_rank_one d hlc) (contr_size_one d hlc)).symm]
  refine Finset.sum_congr rfl fun k _ => ?_
  have e1 : d.lhsIdx (ix2 p q) ((contrEquiv1 d K (contr_rank_one d hlc) (contr_size_one d hlc)).symm k) = ix2 k p := by
    funext a; refine Fin.ext ?_
    match a with
    | ⟨0, _⟩ => exact (d.lhsIdx_val_of_single hlc _ _).trans (contrEquiv1_symm_val d K _ _ k)
    | ⟨1, _⟩ => exact lhsIdx_val_kept d hlb hln _ _ Nat.zero_lt_two
  have e2 : d.rhsIdx (ix2 p q) ((contrEquiv1 d K (contr_rank_one d hlc) (contr_size_one d hlc)).symm k) = ix2 q k := by
    funext a; refine Fin.ext ?_
    match a with
    | ⟨0, _⟩ => exact rhsIdx_val_kept d hlb hrb hln hrn _ _ Nat.one_lt_two
    | ⟨1, _⟩ => exact (d.rhsIdx_val_of_single hrc _ _).trans (contrEquiv1_symm_val d K _ _ k)
  rw [e1, e2]

/-- Both operands contracted on their first axis: the left [K, M], the right [K, N]; the result is [M, N]. -/
theorem sum_cols_cols {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (l : FVec Ideal ⟨2, ![K, M]⟩ φ₁) (r : FVec Ideal ⟨2, ![K, N]⟩ φ₂) (p : Fin M) (q : Fin N) :
    ∑ k : d.contr.Idx, l (d.lhsIdx (ix2 p q) k) * r (d.rhsIdx (ix2 p q) k) = ∑ k : Fin K, l (ix2 k p) * r (ix2 k q) := by
  rw [← Equiv.sum_comp (contrEquiv1 d K (contr_rank_one d hlc) (contr_size_one d hlc)).symm]
  refine Finset.sum_congr rfl fun k _ => ?_
  have e1 : d.lhsIdx (ix2 p q) ((contrEquiv1 d K (contr_rank_one d hlc) (contr_size_one d hlc)).symm k) = ix2 k p := by
    funext a; refine Fin.ext ?_
    match a with
    | ⟨0, _⟩ => exact (d.lhsIdx_val_of_single hlc _ _).trans (contrEquiv1_symm_val d K _ _ k)
    | ⟨1, _⟩ => exact lhsIdx_val_kept d hlb hln _ _ Nat.zero_lt_two
  have e2 : d.rhsIdx (ix2 p q) ((contrEquiv1 d K (contr_rank_one d hlc) (contr_size_one d hlc)).symm k) = ix2 k q := by
    funext a; refine Fin.ext ?_
    match a with
    | ⟨0, _⟩ => exact (d.rhsIdx_val_of_single hrc _ _).trans (contrEquiv1_symm_val d K _ _ k)
    | ⟨1, _⟩ => exact rhsIdx_val_kept d hlb hrb hln hrn _ _ Nat.one_lt_two
  rw [e1, e2]

/-! ## The three arrangements as properties of a dimension record (a printed record proves each by six rfl's) -/

/-- Rows by columns: left contracted on axis 1, right on axis 0, no batch axis. -/
def IsRowsCols {M K N : Nat} (d : DotDims ⟨2, ![M, K]⟩ ⟨2, ![K, N]⟩ ⟨2, ![M, N]⟩) : Prop :=
  d.lhsContracting = [1] ∧ d.rhsContracting = [0] ∧ d.lhsNonContracting = [0] ∧ d.rhsNonContracting = [1]
    ∧ d.lhsBatch = [] ∧ d.rhsBatch = []

/-- Left contracted on axis 0, right on axis 1, no batch axis. -/
def IsColsRows {M K N : Nat} (d : DotDims ⟨2, ![K, M]⟩ ⟨2, ![N, K]⟩ ⟨2, ![M, N]⟩) : Prop :=
  d.lhsContracting = [0] ∧ d.rhsContracting = [1] ∧ d.lhsNonContracting = [1] ∧ d.rhsNonContracting = [0]
    ∧ d.lhsBatch = [] ∧ d.rhsBatch = []

/-- Both contracted on axis 0, no batch axis. -/
def IsColsCols {M K N : Nat} (d : DotDims ⟨2, ![K, M]⟩ ⟨2, ![K, N]⟩ ⟨2, ![M, N]⟩) : Prop :=
  d.lhsContracting = [0] ∧ d.rhsContracting = [0] ∧ d.lhsNonContracting = [1] ∧ d.rhsNonContracting = [1]
    ∧ d.lhsBatch = [] ∧ d.rhsBatch = []

/-! ## The host product and the kernel's product into a zero accumulator, read at an element -/

/-- The host's rows-by-columns product at (p, q). -/
theorem hostDot_rows_cols {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ φ₁) (r : FVec Ideal ⟨2, ![K, N]⟩ φ₂) (p : Fin M) (q : Fin N) :
    Host.dotGeneral (F := Ideal) d none l r (ix2 p q) = ∑ k : Fin K, l (ix2 p k) * r (ix2 k q) :=
  (Ideal.dotGeneral_apply d none .single l r (ix2 p q)).trans (sum_rows_cols d hlc hrc hln hrn hlb hrb l r p q)

/-- The kernel's rows-by-columns product into a zero accumulator at (p, q). -/
theorem matmul0_rows_cols {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 p k) * r (ix2 k q) :=
  (Ideal.matmul_constant_zero_apply d none l r (ix2 p q)).trans (sum_rows_cols d hlc hrc hln hrn hlb hrb l r p q)

/-- The kernel's transposed product into a zero accumulator at (p, q). -/
theorem matmul0_cols_rows {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (l : FVec Ideal ⟨2, ![K, M]⟩ φ₁) (r : FVec Ideal ⟨2, ![N, K]⟩ φ₂) (p : Fin M) (q : Fin N) :
    matmul (F := Ideal) d none l r (constant ⟨2, ![M, N]⟩ .f32 0x00000000#32) (ix2 p q)
      = ∑ k : Fin K, l (ix2 k p) * r (ix2 q k) :=
  (Ideal.matmul_constant_zero_apply d none l r (ix2 p q)).trans (sum_cols_rows d hlc hrc hln hrn hlb hrb l r p q)

/-- The kernel's product of two operands contracted on their first axes, into a zero accumulator, at (p, q). -/
theorem matmul0_cols_cols {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (l : FVec Ideal ⟨2, ![K, M]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 k p) * r (ix2 k q) :=
  (Ideal.matmul_constant_zero_apply d none l r (ix2 p q)).trans (sum_cols_cols d hlc hrc hln hrn hlb hrb l r p q)

/-- The host's rows-by-columns product at (p, q), from the record's property. -/
theorem hostDot_rc {M K N : Nat} {φ₁ φ₂ : FTy} (d : DotDims ⟨2, ![M, K]⟩ ⟨2, ![K, N]⟩ ⟨2, ![M, N]⟩) (h : IsRowsCols d)
    (l : FVec Ideal ⟨2, ![M, K]⟩ φ₁) (r : FVec Ideal ⟨2, ![K, N]⟩ φ₂) (p : Fin M) (q : Fin N) :
    Host.dotGeneral (F := Ideal) d none l r (ix2 p q) = ∑ k : Fin K, l (ix2 p k) * r (ix2 k q) :=
  hostDot_rows_cols d h.1 h.2.1 h.2.2.1 h.2.2.2.1 h.2.2.2.2.1 h.2.2.2.2.2 l r p q

/-- The kernel's rows-by-columns product into zeros at (p, q), from the record's property. -/
theorem matmul0_rc {M K N : Nat} {φ₁ φ₂ : FTy} (d : DotDims ⟨2, ![M, K]⟩ ⟨2, ![K, N]⟩ ⟨2, ![M, N]⟩) (h : IsRowsCols d)
    (l : FVec Ideal ⟨2, ![M, K]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 p k) * r (ix2 k q) :=
  matmul0_rows_cols d h.1 h.2.1 h.2.2.1 h.2.2.2.1 h.2.2.2.2.1 h.2.2.2.2.2 l r p q

/-- The kernel's transposed product into zeros at (p, q), from the record's property. -/
theorem matmul0_cr {M K N : Nat} {φ₁ φ₂ : FTy} (d : DotDims ⟨2, ![K, M]⟩ ⟨2, ![N, K]⟩ ⟨2, ![M, N]⟩) (h : IsColsRows d)
    (l : FVec Ideal ⟨2, ![K, M]⟩ φ₁) (r : FVec Ideal ⟨2, ![N, K]⟩ φ₂) (p : Fin M) (q : Fin N) :
    matmul (F := Ideal) d none l r (constant ⟨2, ![M, N]⟩ .f32 0x00000000#32) (ix2 p q)
      = ∑ k : Fin K, l (ix2 k p) * r (ix2 q k) :=
  matmul0_cols_rows d h.1 h.2.1 h.2.2.1 h.2.2.2.1 h.2.2.2.2.1 h.2.2.2.2.2 l r p q

/-- The kernel's product of two operands contracted on their first axes, into zeros, at (p, q), from the record's
    property. -/
theorem matmul0_cc {M K N : Nat} {φ₁ φ₂ : FTy} (d : DotDims ⟨2, ![K, M]⟩ ⟨2, ![K, N]⟩ ⟨2, ![M, N]⟩) (h : IsColsCols d)
    (l : FVec Ideal ⟨2, ![K, M]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 k p) * r (ix2 k q) :=
  matmul0_cols_cols d h.1 h.2.1 h.2.2.1 h.2.2.2.1 h.2.2.2.2.1 h.2.2.2.2.2 l r p q

end Arrangements

end Cert.Lib.Dot
-- ==== Proof.KernelBody.lean ====
/-
  What the kernel body leaves in the accumulator and in the output block, point by point.

  At a grid point (block row mb, half kh) the body multiplies the [1024, 5120] block of the adjacency it is
  handed by rows 5120·kh … 5120·kh + 5119 of the resident feature array, and adds the product to the accumulator;
  at the first half it zeroes the accumulator first, at the second half it copies the accumulator to the output
  block afterwards. So after a first-half point the accumulator is 0 + A₀·X₀, and after the second-half point that
  follows it the accumulator and the output block are (0 + A₀·X₀) + A₁·X₁. At an entry (p, q) each product is the
  sum over the 5120 columns k of A[p, k] · X[k, q].
-/
import proofs.«431183_j73469710566062_3_alg».proof.Proof.Gen.KernelIdeal.Frame
import proofs.«431183_j73469710566062_3_alg».proof.Proof.LibDot
import Idealize.ShloMosaic.Lib.Pipeline.Value
import Idealize.ShloMosaic.Lib.Tactic

noncomputable section

open scoped BigOperators

open Idealize.ShloMosaic Idealize.ShloMosaic.TcCoe Idealize.SL.Sem

namespace Cert.KernelIdeal.Body

open Cert.KernelIdeal Cert.KernelIdeal.Gen Idealize.ShloMosaic.ValueIdx

variable {F : FTy → Type} [FloatOps F]

/-- Zero offsets, however they are spelt. -/
theorem hz : (![0, 0] : Fin 2 → Nat) = fun _ => 0 := funext fun a => by fin_cases a <;> rfl

/-- The rows of the resident feature array the body multiplies at grid point i: 5120 rows from row 5120·(i 1). -/
abbrev chunk (i : grid0.Coords) (x1 : Vec F S10240x128 .bf16) : Vec F S5120x128 .bf16 :=
  View.ld x1 (Rect.unit (s := S10240x128) (k0_off1 i) S5120x128.size (k0_off1_inb i))

/-- A first-half point leaves the accumulator at the product added to the zero block it has just stored there. -/
theorem acc_first (c : Dev nD) (i : grid0.Coords) (arg2 : Memref sig .tc .vmem S1024x5120 .bf16) (harg2 : arg2.IsWhole)
    (arg3 : Memref sig .tc .vmem S10240x128 .bf16) (harg3 : arg3.IsWhole) (arg4 : Memref sig .tc .vmem S1024x128 .f32)
    (harg4 : arg4.IsWhole) (arg5 : Memref sig .tc .vmem S1024x128 .f32) (harg5 : arg5.IsWhole) (hc0 : cond0_0 i)
    (hc1 : ¬cond0_1 i) (x0 : Vec F S1024x5120 .bf16) (x1 : Vec F S10240x128 .bf16) :
    sout0_A_0 c i arg2 harg2 arg3 harg3 arg4 harg4 arg5 harg5 hc0 hc1 x0 x1
      = k0_pay2 (chunk i x1) x0 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1024x128) hz, View.readCov_unit_zero (S := S1024x128) _ hz]
  simp only [View.readAt_eq_ld, harg2.read_unread, harg3.read_unread, View.ld_unit_zero (S := S1024x5120) hz]
  rfl

/-- A second-half point leaves the accumulator at the product added to what the point before left there. -/
theorem acc_second (c : Dev nD) (i : grid0.Coords) (arg2 : Memref sig .tc .vmem S1024x5120 .bf16) (harg2 : arg2.IsWhole)
    (arg3 : Memref sig .tc .vmem S10240x128 .bf16) (harg3 : arg3.IsWhole) (arg4 : Memref sig .tc .vmem S1024x128 .f32)
    (harg4 : arg4.IsWhole) (arg5 : Memref sig .tc .vmem S1024x128 .f32) (harg5 : arg5.IsWhole) (hc0 : ¬cond0_0 i)
    (hc1 : cond0_1 i) (x0 : Vec F S1024x5120 .bf16) (x1 : Vec F S10240x128 .bf16) (xs0 : Vec F S1024x128 .f32) :
    sout0_B_0 c i arg2 harg2 arg3 harg3 arg4 harg4 arg5 harg5 hc0 hc1 x0 x1 xs0
      = k0_pay2 (chunk i x1) x0 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero (S := S1024x128) hz]
  simp only [View.readAt_eq_ld, harg2.read_unread, harg3.read_unread, harg5.read_unread,
    View.ld_unit_zero (S := S1024x5120) hz, View.ld_unit_zero (S := S1024x128) hz]
  rfl

/-- A second-half point leaves the output block at the same value: the accumulator read back after the store. -/
theorem out_second (c : Dev nD) (i : grid0.Coords) (arg2 : Memref sig .tc .vmem S1024x5120 .bf16) (harg2 : arg2.IsWhole)
    (arg3 : Memref sig .tc .vmem S10240x128 .bf16) (harg3 : arg3.IsWhole) (arg4 : Memref sig .tc .vmem S1024x128 .f32)
    (harg4 : arg4.IsWhole) (arg5 : Memref sig .tc .vmem S1024x128 .f32) (harg5 : arg5.IsWhole) (hc0 : ¬cond0_0 i)
    (hc1 : cond0_1 i) (x0 : Vec F S1024x5120 .bf16) (x1 : Vec F S10240x128 .bf16) (xs0 : Vec F S1024x128 .f32) :
    out0_B_2 c i arg2 harg2 arg3 harg3 arg4 harg4 arg5 harg5 hc0 hc1 x0 x1 xs0
      = k0_pay2 (chunk i x1) x0 xs0 := by
  unfold out0_B_2
  rw [View.read_writes_eq_canon _ _ _ (cover0_B_2 c i arg2 harg2 arg3 harg3 arg4 harg4 arg5 harg5 hc0 hc1 x0 x1 xs0)]
  unfold kernelRun0_B
  dsimp only
  sl_unfold_words
  rw [View.canon_unit_zero (S := S1024x128) hz]
  simp only [View.readAt_eq_ld, harg2.read_unread, harg3.read_unread, harg5.read_unread,
    View.ld_unit_zero (S := S1024x5120) hz, View.ld_unit_zero (S := S1024x128) hz,
    View.readCov_unit_zero (S := S1024x128) _ hz]
  rfl

/-! ## The accumulating payload at an entry, over the extended reals -/

/-- The product record is rows by columns. -/
theorem dot_rc : Cert.Lib.Dot.IsRowsCols dot_S1024x5120_S5120x128_S1024x128_1_0_0_1_n_n :=
  ⟨rfl, rfl, rfl, rfl, rfl, rfl⟩

/-- The zero block at an entry. -/
theorem zero_at (j : S1024x128.Idx) : k0_pay1 (F := Ideal) j = 0 := by
  unfold k0_pay1
  rw [shapeCast_self]
  exact Ideal.ofBits_zero_f32

/-- The accumulating store's payload at entry (p, q): the old accumulator's entry plus the sum over the 5120
    columns k of the adjacency block's (p, k) times the feature chunk's (k, q). -/
theorem pay_at (v6 : FVec Ideal S5120x128 .bf16) (v8 : FVec Ideal S1024x5120 .bf16) (v10 : FVec Ideal S1024x128 .f32)
    (p : Fin 1024) (q : Fin 128) :
    k0_pay2 (F := Ideal) v6 v8 v10 (ix2 p q) = v10 (ix2 p q) + ∑ k : Fin 5120, v8 (ix2 p k) * v6 (ix2 k q) := by
  unfold k0_pay2
  rw [shapeCast_self, shapeCast_self, shapeCast_self]
  show v10 (ix2 p q) + matmul (F := Ideal) dot_S1024x5120_S5120x128_S1024x128_1_0_0_1_n_n none v8 v6
      (constant S1024x128 .f32 0x00000000#32) (ix2 p q) = _
  rw [Cert.Lib.Dot.matmul0_rc _ dot_rc v8 v6 p q]

end Cert.KernelIdeal.Body

end
-- ==== Proof.LibScatterRead.lean ====
/-
  A host scatter-add read at one element, at the exact (extended-real) instance, for the two index layouts met
  when a sparse linear map given by an edge list is applied:

  * the COLUMN scatter: updates `[B, n]`, one column index per edge; update `(b, e)` lands at `(b, idx e)`,
    so element `(b, c)` collects the updates `(b, e)` over the edges `e` whose index is `c`;
  * the POINT scatter: updates `[n]`, a (row, column) pair per edge; update `e` lands at `(row e, col e)`,
    so element `(k, c)` collects the updates over the edges whose pair is `(k, c)`.

  In both an index outside the operand (read as a signed integer, not clamped) drops its update, which the
  integer equations under the sums say by themselves: no element's coordinate equals such an index.

  Beside them: the index normalisation (a negative word counts from the end of the axis) read at an index, and
  the two-column index array built by concatenating two one-column arrays read at an index.
-/
import Idealize.ShloMosaic.PureOps.Ideal
import Idealize.ShloMosaic.PureOps.Contract
import Idealize.ShloMosaic.Lib.ValueIdx
import Idealize.ShloMosaic.Lib.Pipeline.Value
import proofs.«431183_j73469710566062_3_alg».proof.Proof.Spec

noncomputable section

open scoped BigOperators

namespace Cert.Lib.ScatterRead

open Idealize.ShloMosaic Idealize.ShloMosaic.ValueIdx Cert.Spec

/-! ## When an update lands at a given element -/

/-- An update lands at element `i` exactly when, on every axis, its start plus its window coordinate is
    `i`'s coordinate as an integer: being inside the operand is then automatic, and outside it no element matches. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · next h =>
    rw [Option.some.injEq]
    constructor
    · intro hf a
      have := congrArg (fun f => (f a).val) hf
      simp only at this
      have h' := h a
      omega
    · intro hf
      funext a
      apply Fin.ext
      have := hf a
      simp only
      omega
  · next h =>
    constructor
    · intro hf; exact absurd hf (by simp)
    · intro hf
      exfalso; apply h
      intro a
      have := hf a
      have := (i a).isLt
      omega

/-! ## The column scatter -/

section Col
variable {B C n : Nat}

/-- The column scatter's dimension numbers, as a record. -/
private abbrev colDims (wf : ScatterDims.WF ⟨2, ![B, C]⟩ ⟨2, ![n, 1]⟩ ⟨2, ![B, n]⟩ [0] [1] [1] 1) :
    ScatterDims ⟨2, ![B, C]⟩ ⟨2, ![n, 1]⟩ ⟨2, ![B, n]⟩ where
  updateWindowDims := [0]
  insertedWindowDims := [1]
  scatterDimsToOperandDims := [1]
  indexVectorDim := 1
  wf := wf

variable (wf : ScatterDims.WF ⟨2, ![B, C]⟩ ⟨2, ![n, 1]⟩ ⟨2, ![B, n]⟩ [0] [1] [1] 1)
  (idx : IVec ⟨2, ![n, 1]⟩ 32) (j : (⟨2, ![B, n]⟩ : Shape).Idx)

private theorem col_start0 : (colDims wf).start j idx 0 = 0 := by
  unfold ScatterDims.start
  rw [dif_neg (show ¬ (0 : Fin 2) ∈ ([1] : List (Fin 2)) from by decide)]

private theorem col_start1 : (colDims wf).start j idx 1 = (idx (ix2 (j 1) (0 : Fin 1))).toInt := by
  unfold ScatterDims.start
  rw [dif_pos (show (1 : Fin 2) ∈ (colDims wf).scatterDimsToOperandDims from List.mem_singleton.mpr rfl)]
  congr 2
  funext b; refine Fin.ext ?_
  match b with
  | ⟨0, _⟩ => rfl
  | ⟨1, _⟩ => rfl

private theorem col_window0 : (colDims wf).window j 0 = (j 0).val := by
  rfl

private theorem col_window1 : (colDims wf).window j 1 = 0 := by
  rfl

/-- Where update `j` of the column scatter lands: at `(b, c)` exactly when its row is `b` and its edge's index is `c`. -/
private theorem col_lands (b : Fin B) (c : Fin C) :
    (colDims wf).resultIdx? j idx = some (ix2 b c)
      ↔ (j 0 : Fin B) = b ∧ (idx (ix2 (j 1) (0 : Fin 1))).toInt = (c.val : ℤ) := by
  rw [resultIdx?_eq_some_iff, Fin.forall_fin_two, col_start0, col_start1, col_window0, col_window1]
  show (0 + (((j 0 : Fin B).val : ℕ) : ℤ) = ((b.val : ℕ) : ℤ)) ∧ (_ + ((0 : ℕ) : ℤ) = ((c.val : ℕ) : ℤ)) ↔ _
  constructor
  · rintro ⟨h0, h1⟩
    exact ⟨Fin.ext (by omega), by omega⟩
  · rintro ⟨h0, h1⟩
    exact ⟨by rw [h0]; omega, by omega⟩

end Col

/-- The column scatter-add at element `(b, c)`: the operand's element plus the updates `(b, e)` over the edges
    `e` whose index word, read signed, is `c`. -/
theorem scatterAdd_col_read {B C n : Nat} {φ : FTy} (d : ScatterDims ⟨2, ![B, C]⟩ ⟨2, ![n, 1]⟩ ⟨2, ![B, n]⟩)
    (h1 : d.updateWindowDims = [0]) (h2 : d.insertedWindowDims = [1]) (h3 : d.scatterDimsToOperandDims = [1])
    (h4 : d.indexVectorDim = 1)
    (x : A2 B C) (idx : IVec ⟨2, ![n, 1]⟩ 32) (upd : A2 B n) (b : Fin B) (c : Fin C) :
    Host.scatterAdd (F := Ideal) (φ := φ) d x idx upd (ix2 b c)
      = x (ix2 b c) + ∑ e ∈ Finset.univ.filter (fun e : Fin n => (idx (ix2 e (0 : Fin 1))).toInt = (c.val : ℤ)),
          upd (ix2 b e) := by
  obtain ⟨uw, iw, sd, iv, wf⟩ := d
  dsimp only at h1 h2 h3 h4
  subst h1 h2 h3 h4
  show Ideal.hostScatterAdd (colDims wf) x idx upd (ix2 b c) = _
  unfold Ideal.hostScatterAdd
  congr 1
  refine Finset.sum_nbij' (fun j => (j 1 : Fin n)) (fun e => ix2 b e) ?_ ?_ ?_ ?_ ?_
  · intro j hj
    exact Finset.mem_filter.mpr ⟨Finset.mem_univ _, ((col_lands wf idx j b c).mp (Finset.mem_filter.mp hj).2).2⟩
  · intro e he
    exact Finset.mem_filter.mpr
      ⟨Finset.mem_univ _, (col_lands wf idx (ix2 b e) b c).mpr ⟨rfl, (Finset.mem_filter.mp he).2⟩⟩
  · intro j hj
    have h0 := ((col_lands wf idx j b c).mp (Finset.mem_filter.mp hj).2).1
    rw [← h0]; exact (eq_ix2 j).symm
  · intro e _; rfl
  · intro j hj
    have h0 := ((col_lands wf idx j b c).mp (Finset.mem_filter.mp hj).2).1
    rw [← h0]; exact congrArg upd (eq_ix2 j)

/-! ## The point scatter -/

section Point
variable {K C n : Nat}

/-- The point scatter's dimension numbers, as a record. -/
private abbrev pointDims (wf : ScatterDims.WF ⟨2, ![K, C]⟩ ⟨2, ![n, 2]⟩ ⟨1, ![n]⟩ [] [0, 1] [0, 1] 1) :
    ScatterDims ⟨2, ![K, C]⟩ ⟨2, ![n, 2]⟩ ⟨1, ![n]⟩ where
  updateWindowDims := []
  insertedWindowDims := [0, 1]
  scatterDimsToOperandDims := [0, 1]
  indexVectorDim := 1
  wf := wf

variable (wf : ScatterDims.WF ⟨2, ![K, C]⟩ ⟨2, ![n, 2]⟩ ⟨1, ![n]⟩ [] [0, 1] [0, 1] 1)
  (idx : IVec ⟨2, ![n, 2]⟩ 32) (j : (⟨1, ![n]⟩ : Shape).Idx)

private theorem point_start0 : (pointDims wf).start j idx 0 = (idx (ix2 (j 0) (0 : Fin 2))).toInt := by
  unfold ScatterDims.start
  rw [dif_pos (show (0 : Fin 2) ∈ ([0, 1] : List (Fin 2)) from by decide)]
  congr 2
  funext b; refine Fin.ext ?_
  match b with
  | ⟨0, _⟩ => rfl
  | ⟨1, _⟩ => rfl

private theorem point_start1 : (pointDims wf).start j idx 1 = (idx (ix2 (j 0) (1 : Fin 2))).toInt := by
  unfold ScatterDims.start
  rw [dif_pos (show (1 : Fin 2) ∈ ([0, 1] : List (Fin 2)) from by decide)]
  congr 2
  funext b; refine Fin.ext ?_
  match b with
  | ⟨0, _⟩ => rfl
  | ⟨1, _⟩ => rfl

private theorem point_window (a : Fin 2) : (pointDims wf).window j a = 0 := by
  match a with
  | ⟨0, _⟩ => rfl
  | ⟨1, _⟩ => rfl

/-- Where update `j` of the point scatter lands: at `(k, c)` exactly when its edge's index pair is `(k, c)`. -/
private theorem point_lands (k : Fin K) (c : Fin C) :
    (pointDims wf).resultIdx? j idx = some (ix2 k c)
      ↔ (idx (ix2 (j 0) (0 : Fin 2))).toInt = (k.val : ℤ) ∧ (idx (ix2 (j 0) (1 : Fin 2))).toInt = (c.val : ℤ) := by
  rw [resultIdx?_eq_some_iff, Fin.forall_fin_two, point_start0, point_start1, point_window, point_window]
  show (_ + ((0 : ℕ) : ℤ) = ((k.val : ℕ) : ℤ)) ∧ (_ + ((0 : ℕ) : ℤ) = ((c.val : ℕ) : ℤ)) ↔ _
  constructor
  · rintro ⟨h0, h1⟩
    exact ⟨by omega, by omega⟩
  · rintro ⟨h0, h1⟩
    exact ⟨by omega, by omega⟩

end Point

/-- The point scatter-add at element `(k, c)`: the operand's element plus the updates over the edges whose
    index pair, read signed, is `(k, c)`. -/
theorem scatterAdd_point_read {K C n : Nat} {φ : FTy} (d : ScatterDims ⟨2, ![K, C]⟩ ⟨2, ![n, 2]⟩ ⟨1, ![n]⟩)
    (h1 : d.updateWindowDims = []) (h2 : d.insertedWindowDims = [0, 1]) (h3 : d.scatterDimsToOperandDims = [0, 1])
    (h4 : d.indexVectorDim = 1)
    (x : A2 K C) (idx : IVec ⟨2, ![n, 2]⟩ 32) (upd : A1 n) (k : Fin K) (c : Fin C) :
    Host.scatterAdd (F := Ideal) (φ := φ) d x idx upd (ix2 k c)
      = x (ix2 k c) + ∑ e ∈ Finset.univ.filter (fun e : Fin n =>
          (idx (ix2 e (0 : Fin 2))).toInt = (k.val : ℤ) ∧ (idx (ix2 e (1 : Fin 2))).toInt = (c.val : ℤ)),
          upd (ix1 e) := by
  obtain ⟨uw, iw, sd, iv, wf⟩ := d
  dsimp only at h1 h2 h3 h4
  subst h1 h2 h3 h4
  show Ideal.hostScatterAdd (pointDims wf) x idx upd (ix2 k c) = _
  unfold Ideal.hostScatterAdd
  congr 1
  refine Finset.sum_nbij' (fun j => (j 0 : Fin n)) (fun e => ix1 e) ?_ ?_ ?_ ?_ ?_
  · intro j hj
    exact Finset.mem_filter.mpr ⟨Finset.mem_univ _, (point_lands wf idx j k c).mp (Finset.mem_filter.mp hj).2⟩
  · intro e he
    exact Finset.mem_filter.mpr
      ⟨Finset.mem_univ _, (point_lands wf idx (ix1 e) k c).mpr (Finset.mem_filter.mp he).2⟩
  · intro j _; exact (eq_ix1 j).symm
  · intro e _; rfl
  · intro j _; exact congrArg upd (eq_ix1 j)

/-! ## The index normalisation and the two-column index array, at an index -/

/-- The normalisation of an index array read at an index: where the word is negative the extent is added. -/
theorem norm_read {s : Shape} (h0 : (⟨0, ![]⟩ : Shape).BroadcastsInDim s (![] : Fin 0 → Fin s.rank))
    (idx : IVec s 32) (N : Nat) (i : s.Idx) :
    select (cmpi .slt idx (broadcastInDim s ![] h0 (constantI ⟨0, ![]⟩ 32 0#32)))
      (addi idx (broadcastInDim s ![] h0 (constantI ⟨0, ![]⟩ 32 (BitVec.ofNat 32 N)))) idx i
      = Cert.Spec.norm N (idx i) := by
  show (if BitVec.ofBool ((idx i).slt 0#32) = 1 then idx i + BitVec.ofNat 32 N else idx i) = _
  unfold Cert.Spec.norm
  cases (idx i).slt 0#32 <;> simp

/-- Two one-column arrays laid side by side: column 0 is the first. -/
theorem concat_cols_read0 {n : Nat} (a b : IVec ⟨2, ![n, 1]⟩ 32)
    (h : Shape.Concatenates [(⟨2, ![n, 1]⟩ : Shape), ⟨2, ![n, 1]⟩] ⟨2, ![n, 2]⟩ 1) (e : Fin n) :
    concatenate ⟨2, ![n, 2]⟩ 1 [⟨⟨2, ![n, 1]⟩, a⟩, ⟨⟨2, ![n, 1]⟩, b⟩] h (ix2 e (0 : Fin 2)) = a (ix2 e (0 : Fin 1)) := by
  refine concatenate_pair_apply_left (1 : Fin 2) a b h (ix2 e (0 : Fin 2)) rfl (ix2 e (0 : Fin 1)) ?_
  intro b'
  match b' with
  | ⟨0, _⟩ => rfl
  | ⟨1, _⟩ => rfl

/-- Two one-column arrays laid side by side: column 1 is the second. -/
theorem concat_cols_read1 {n : Nat} (a b : IVec ⟨2, ![n, 1]⟩ 32)
    (h : Shape.Concatenates [(⟨2, ![n, 1]⟩ : Shape), ⟨2, ![n, 1]⟩] ⟨2, ![n, 2]⟩ 1) (e : Fin n) :
    concatenate ⟨2, ![n, 2]⟩ 1 [⟨⟨2, ![n, 1]⟩, a⟩, ⟨⟨2, ![n, 1]⟩, b⟩] h (ix2 e (1 : Fin 2)) = b (ix2 e (0 : Fin 1)) := by
  refine concatenate_pair_apply_right (1 : Fin 2) a b h (ix2 e (1 : Fin 2)) rfl rfl (ix2 e (0 : Fin 1)) ?_ rfl
  intro b' hb'
  match b', hb' with
  | ⟨0, _⟩, _ => rfl
  | ⟨1, _⟩, hb' => exact absurd rfl hb'

end Cert.Lib.ScatterRead

end
-- ==== Proof.LibScatterSet.lean ====
/-
  A block of rows written over the top of a taller array, read at one element.

  A host scatter whose body returns the update, with ONE scatter index (the row offset) and the whole update as
  its window, copies an [n, C] array into rows offset … offset + n − 1 of an [N, C] array. With the offset word zero
  and n ≤ N, element (r, f) of the result is the update's element (r, f) for r < n, and the operand's otherwise:
  every update element lands inside the operand, and no two land on one element, so the order in which the
  updates are applied does not matter.
-/
import Idealize.ShloMosaic.PureOps.ShapeOps
import Idealize.ShloMosaic.PureOps.Dims
import Idealize.ShloMosaic.Lib.ValueIdx
import proofs.«431183_j73469710566062_3_alg».proof.Proof.LibScatterRead

noncomputable section

namespace Cert.Lib.ScatterSet

open Idealize.ShloMosaic Idealize.ShloMosaic.ValueIdx

/-! ## A fold of point updates, read at one element -/

/-- A fold of steps, each of which leaves element `i` alone unless its position `k` hits `i`: when no position of
    the list hits `i`, the fold's value at `i` is the starting value at `i`. -/
private theorem foldl_point_miss {ι κ α : Type} (step : (ι → α) → κ → ι → α) (hit : κ → ι → Prop)
    (hmiss : ∀ (r : ι → α) (k : κ) (i : ι), ¬ hit k i → step r k i = r i) :
    ∀ (l : List κ) (acc : ι → α) (i : ι), (∀ k ∈ l, ¬ hit k i) → l.foldl step acc i = acc i := by
  intro l
  induction l with
  | nil => intro acc i _; rfl
  | cons c t ih =>
    intro acc i h
    rw [List.foldl_cons, ih (step acc c) i (fun k hk => h k (List.mem_cons_of_mem c hk))]
    exact hmiss acc c i (h c List.mem_cons_self)

/-- The same fold when exactly one position `a` of a list without repeats hits `i`, a hitting step writing the
    value `v k` of its position: the fold's value at `i` is `v a`, whatever came before and whatever comes after. -/
private theorem foldl_point_hit {ι κ α : Type} (step : (ι → α) → κ → ι → α) (hit : κ → ι → Prop) (v : κ → α)
    (hhit : ∀ (r : ι → α) (k : κ) (i : ι), hit k i → step r k i = v k)
    (hmiss : ∀ (r : ι → α) (k : κ) (i : ι), ¬ hit k i → step r k i = r i) :
    ∀ (l : List κ) (acc : ι → α) (i : ι) (a : κ), l.Nodup → a ∈ l → hit a i → (∀ b ∈ l, hit b i → b = a) →
      l.foldl step acc i = v a := by
  intro l
  induction l with
  | nil => intro acc i a _ ha; exact absurd ha List.not_mem_nil
  | cons c t ih =>
    intro acc i a hnd ha hai huniq
    rw [List.foldl_cons]
    rw [List.nodup_cons] at hnd
    rcases List.mem_cons.mp ha with hac | hat
    · -- the head is the hitting position; nothing in the tail hits
      subst hac
      rw [foldl_point_miss step hit hmiss t (step acc a) i]
      · exact hhit acc a i hai
      · intro k hk hki
        have : k = a := huniq k (List.mem_cons_of_mem a hk) hki
        exact hnd.1 (this ▸ hk)
    · -- the hitting position is in the tail
      exact ih (step acc c) i a hnd.2 hat hai (fun b hb hbi => huniq b (List.mem_cons_of_mem c hb) hbi)

/-! ## Where an update of the row-block scatter lands -/

section Rows
variable {N n C : Nat}

/-- The row-block scatter's dimension numbers, as a record. -/
private abbrev rowDims (wf : ScatterDims.WF ⟨2, ![N, C]⟩ ⟨1, ![1]⟩ ⟨2, ![n, C]⟩ [0, 1] [] [0] 0) :
    ScatterDims ⟨2, ![N, C]⟩ ⟨1, ![1]⟩ ⟨2, ![n, C]⟩ where
  updateWindowDims := [0, 1]
  insertedWindowDims := []
  scatterDimsToOperandDims := [0]
  indexVectorDim := 0
  wf := wf

variable (wf : ScatterDims.WF ⟨2, ![N, C]⟩ ⟨1, ![1]⟩ ⟨2, ![n, C]⟩ [0, 1] [] [0] 0)
  (idx : IVec ⟨1, ![1]⟩ 32) (j : (⟨2, ![n, C]⟩ : Shape).Idx)

/-- On the row axis the window starts at the one index word, read signed. -/
private theorem row_start0 : (rowDims wf).start j idx 0 = (idx (ix1 (0 : Fin 1))).toInt := by
  unfold ScatterDims.start
  rw [dif_pos (show (0 : Fin 2) ∈ (rowDims wf).scatterDimsToOperandDims from List.mem_singleton.mpr rfl)]
  congr 2
  funext b; refine Fin.ext ?_
  match b with
  | ⟨0, _⟩ => rfl

/-- The column axis is not named by the index map: the window starts at column zero. -/
private theorem row_start1 : (rowDims wf).start j idx 1 = 0 := by
  unfold ScatterDims.start
  rw [dif_neg (show ¬ (1 : Fin 2) ∈ ([0] : List (Fin 2)) from by decide)]

private theorem row_window0 : (rowDims wf).window j 0 = (j 0).val := by
  rfl

private theorem row_window1 : (rowDims wf).window j 1 = (j 1).val := by
  rfl

/-- Where update `j` lands when the index word is zero: at `(r, f)` exactly when its row is `r` and its column `f`. -/
private theorem row_lands (hidx : idx (ix1 (0 : Fin 1)) = 0#32) (r : Fin N) (f : Fin C) :
    (rowDims wf).resultIdx? j idx = some (ix2 r f) ↔ (j 0 : Fin n).val = r.val ∧ (j 1 : Fin C) = f := by
  rw [Cert.Lib.ScatterRead.resultIdx?_eq_some_iff, Fin.forall_fin_two, row_start0, row_start1, row_window0,
    row_window1, hidx]
  show ((0#32 : BitVec 32).toInt + (((j 0 : Fin n).val : ℕ) : ℤ) = ((r.val : ℕ) : ℤ))
    ∧ (0 + (((j 1 : Fin C).val : ℕ) : ℤ) = ((f.val : ℕ) : ℤ)) ↔ _
  have hz : (0#32 : BitVec 32).toInt = 0 := by decide
  rw [hz]
  constructor
  · rintro ⟨h0, h1⟩
    exact ⟨by omega, Fin.ext (by omega)⟩
  · rintro ⟨h0, h1⟩
    exact ⟨by omega, by rw [h1]; omega⟩

end Rows

/-! ## The fold of this scatter's point updates, read at one element -/

section Fold
variable {N n C : Nat} {α : Type}

/-- A fold over all update positions, in any order without repeats, of steps that write the update's element where
    it lands and leave every other element alone: element `(r, f)` ends as the update's `(r, f)` when `r < n`
    (exactly one update lands there) and stays the operand's otherwise (every update's row is below `n`). -/
private theorem rows_fold_read (wf : ScatterDims.WF ⟨2, ![N, C]⟩ ⟨1, ![1]⟩ ⟨2, ![n, C]⟩ [0, 1] [] [0] 0)
    (idx : IVec ⟨1, ![1]⟩ 32) (hidx : idx (ix1 (0 : Fin 1)) = 0#32)
    (x : (⟨2, ![N, C]⟩ : Shape).Idx → α) (upd : (⟨2, ![n, C]⟩ : Shape).Idx → α) (r : Fin N) (f : Fin C)
    (step : ((⟨2, ![N, C]⟩ : Shape).Idx → α) → Fin (⟨2, ![n, C]⟩ : Shape).numel → (⟨2, ![N, C]⟩ : Shape).Idx → α)
    (hhit : ∀ acc k i, (rowDims wf).resultIdx? ((⟨2, ![n, C]⟩ : Shape).rowMajor.symm k) idx = some i →
      step acc k i = upd ((⟨2, ![n, C]⟩ : Shape).rowMajor.symm k))
    (hmiss : ∀ acc k i, ¬ (rowDims wf).resultIdx? ((⟨2, ![n, C]⟩ : Shape).rowMajor.symm k) idx = some i →
      step acc k i = acc i) :
    (List.finRange (⟨2, ![n, C]⟩ : Shape).numel).foldl step x (ix2 r f)
      = if h : r.val < n then upd (ix2 (⟨r.val, h⟩ : Fin n) f) else x (ix2 r f) := by
  by_cases h : r.val < n
  · rw [dif_pos h]
    -- the one update that lands at (r, f) is the update's element (r, f)
    have hsymm : (⟨2, ![n, C]⟩ : Shape).rowMajor.symm ((⟨2, ![n, C]⟩ : Shape).rowMajor (ix2 (⟨r.val, h⟩ : Fin n) f))
        = ix2 (⟨r.val, h⟩ : Fin n) f := Equiv.symm_apply_apply _ _
    refine (foldl_point_hit step
      (fun k i => (rowDims wf).resultIdx? ((⟨2, ![n, C]⟩ : Shape).rowMajor.symm k) idx = some i)
      (fun k => upd ((⟨2, ![n, C]⟩ : Shape).rowMajor.symm k)) hhit hmiss
      (List.finRange (⟨2, ![n, C]⟩ : Shape).numel) x (ix2 r f)
      ((⟨2, ![n, C]⟩ : Shape).rowMajor (ix2 (⟨r.val, h⟩ : Fin n) f))
      (List.nodup_finRange _) (List.mem_finRange _) ?_ ?_).trans (congrArg upd hsymm)
    · show (rowDims wf).resultIdx? _ idx = some (ix2 r f)
      rw [hsymm]
      exact (row_lands wf idx _ hidx r f).mpr ⟨rfl, rfl⟩
    · intro b _ hb
      have hb' := (row_lands wf idx _ hidx r f).mp hb
      have hj : (⟨2, ![n, C]⟩ : Shape).rowMajor.symm b = ix2 (⟨r.val, h⟩ : Fin n) f := by
        rw [eq_ix2 ((⟨2, ![n, C]⟩ : Shape).rowMajor.symm b)]
        congr 1
        · exact Fin.ext hb'.1
        · exact hb'.2
      rw [← hj]
      exact (Equiv.apply_symm_apply _ _).symm
  · rw [dif_neg h]
    -- every update's row is below n, so none lands at row r
    refine foldl_point_miss step
      (fun k i => (rowDims wf).resultIdx? ((⟨2, ![n, C]⟩ : Shape).rowMajor.symm k) idx = some i)
      hmiss (List.finRange (⟨2, ![n, C]⟩ : Shape).numel) x (ix2 r f) ?_
    intro k _ hk
    have hk' := (row_lands wf idx _ hidx r f).mp hk
    have := idx2_lt0 ((⟨2, ![n, C]⟩ : Shape).rowMajor.symm k)
    omega

end Fold

/-! ## The scatter read at one element -/

/-- Rows 0 … n − 1 of an [N, C] array overwritten by an [n, C] array (the scatter's one index word is zero):
    element (r, f) is the update's for r < n and the operand's for r ≥ n. -/
theorem scatter_set_rows_read {N n C : Nat} {α : Type} (hn : n ≤ N)
    (d : ScatterDims ⟨2, ![N, C]⟩ ⟨1, ![1]⟩ ⟨2, ![n, C]⟩)
    (h1 : d.updateWindowDims = [0, 1]) (h2 : d.insertedWindowDims = []) (h3 : d.scatterDimsToOperandDims = [0])
    (h4 : d.indexVectorDim = 0)
    (x : (⟨2, ![N, C]⟩ : Shape).Idx → α) (idx : IVec ⟨1, ![1]⟩ 32) (hidx : idx (ix1 (0 : Fin 1)) = 0#32)
    (upd : (⟨2, ![n, C]⟩ : Shape).Idx → α) (r : Fin N) (f : Fin C) :
    Host.scatter d (fun _ b => b) x idx upd (ix2 r f)
      = if h : r.val < n then upd (ix2 (⟨r.val, h⟩ : Fin n) f) else x (ix2 r f) := by
  obtain ⟨uw, iw, sd, iv, wf⟩ := d
  dsimp only at h1 h2 h3 h4
  subst h1 h2 h3 h4
  show Host.scatter (rowDims wf) (fun _ b => b) x idx upd (ix2 r f) = _
  unfold Host.scatter
  refine rows_fold_read wf idx hidx x upd r f _ ?_ ?_
  · -- a step whose update lands at i writes the update's element there
    intro acc k i hk
    beta_reduce
    rw [hk]
    exact if_pos rfl
  · -- a step whose update lands elsewhere, or nowhere, leaves i alone
    intro acc k i hk
    beta_reduce
    cases hres : (rowDims wf).resultIdx? ((⟨2, ![n, C]⟩ : Shape).rowMajor.symm k) idx with
    | none => rfl
    | some i0 =>
      have hne : ¬ i = i0 := fun e => hk (by rw [hres, e])
      exact if_neg hne

end Cert.Lib.ScatterSet

end
-- ==== Proof.KernelHost.lean ====
/-
  What the dense program's host lines hand its matrix product: the first operand is the padded adjacency of the
  edge list, the second the scaled features padded with zero rows.
-/
import proofs.«431183_j73469710566062_3_alg».proof.Proof.Spec
import proofs.«431183_j73469710566062_3_alg».proof.Proof.LibScatterRead
import proofs.«431183_j73469710566062_3_alg».proof.Proof.LibScatterSet
import proofs.«431183_j73469710566062_3_alg».proof.Proof.Gen.KernelIdeal.Frame
import Idealize.ShloMosaic.Lib.StableHlo.Run
import Idealize.ShloMosaic.Lib.Pipeline.Value
import Idealize.ShloMosaic.PureOps.Ideal.Laws

noncomputable section

namespace Cert.KernelIdeal.HostValue

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

open Cert.Lib.ScatterRead Cert.Lib.ScatterSet

/-! ## The adjacency operand -/

/-- The index words of one edge array, negative words counted from the end of the padded axis, laid as a column. -/
def normCol (w : IVec S640000 32) : IVec S640000x1 32 :=
  broadcastInDim S640000x1 ![0] bcast_S640000_S640000x1_0
    (select (cmpi .slt w (broadcastInDim S640000 ![] bcast_S_S640000 (constantI S_ 32 0#32)))
      (addi w (broadcastInDim S640000 ![] bcast_S_S640000 (constantI S_ 32 10240#32))) w)

/-- The adjacency operand as one term over the weights and the two index arrays: the weights accumulated into a zero
    matrix at the (destination, source) pairs of wrapped words, then narrowed. -/
def adjTerm (wt : FVec Ideal S640000 .f32) (src dst : IVec S640000 32) : FVec Ideal S10240x10240 .bf16 :=
  truncf .bf16 (Host.scatterAdd (F := Ideal) scatter_S10240x10240_S640000x2_S640000_n_01_01_1
      (broadcastInDim S10240x10240 ![] bcast_S_S10240x10240 (constant (F := Ideal) S_ .f32 0x00000000#32))
      (concatenate S640000x2 1 [⟨S640000x1, normCol dst⟩, ⟨S640000x1, normCol src⟩]
        concatenates_S640000x1_S640000x1_S640000x2_d1)
      wt) bitsLt_bf16_f32

/-- The column of wrapped words at edge e is the wrap of the edge's word. -/
theorem normCol_read (w : IVec S640000 32) (e : Fin 640000) :
    normCol w (ix2 e (0 : Fin 1)) = Cert.Spec.norm 10240 (w (ix1 e)) := by
  unfold normCol
  refine (broadcastInDim_apply _ bcast_S640000_S640000x1_0 _ (ix2 e (0 : Fin 1)) (ix1 e) (fun a => match a with
    | ⟨0, _⟩ => by show e.val = if (640000 : Nat) = 1 then 0 else e.val; rw [if_neg (by decide)])).trans ?_
  exact norm_read bcast_S_S640000 w 10240 (ix1 e)

/-- The zero matrix the weights are accumulated into is zero at every entry. -/
theorem zeros_read (i : S10240x10240.Idx) :
    broadcastInDim S10240x10240 ![] bcast_S_S10240x10240 (constant (F := Ideal) S_ .f32 0x00000000#32) i = (0 : EReal) := by
  refine (broadcastInDim_apply _ bcast_S_S10240x10240 _ i ix0 (fun a => a.elim0)).trans ?_
  exact Ideal.ofBits_zero_f32

/-- The adjacency term at entry (r, c) collects the weights of the edges whose wrapped destination word is r and whose
    wrapped source word is c. -/
theorem adjTerm_read (wt : FVec Ideal S640000 .f32) (src dst : IVec S640000 32) (r c : Fin 10240) :
    adjTerm wt src dst (ix2 r c) = Cert.Spec.AdjAt wt src dst r c := by
  unfold adjTerm Cert.Spec.AdjAt
  rw [truncf_apply,
    scatterAdd_point_read scatter_S10240x10240_S640000x2_S640000_n_01_01_1 rfl rfl rfl rfl, zeros_read, zero_add]
  refine Finset.sum_congr (Finset.filter_congr fun e _ => ?_) fun _ _ => rfl
  rw [concat_cols_read0, concat_cols_read1, normCol_read, normCol_read]

set_option maxHeartbeats 1000000 in
/-- The host lines before the region leave the adjacency term in the product's first operand. -/
theorem adj_term (c : Dev nD) :
    (V m c main_v15 : FVec Ideal S10240x10240 .bf16)
      = adjTerm (m ((c : Thread nD τ).loc main_arg2)) (m ((c : Thread nD τ).loc main_arg3))
          (m ((c : Thread nD τ).loc main_arg4)) := by
  dsimp only [Gen.V, Gen.V0]
  simp only [Gen.hostOps0, List.flatten_cons, List.flatten_nil, List.append_nil]
  after_results
  rfl

/-- The product's first operand, as the region finds it, is the padded adjacency of the weights and index words. -/
theorem adj_value (c : Dev nD) :
    (V m c main_v15 : S10240x10240.Idx → EReal)
      = Cert.Spec.Adj (m ((c : Thread nD τ).loc main_arg2)) (m ((c : Thread nD τ).loc main_arg3))
          (m ((c : Thread nD τ).loc main_arg4)) := by
  refine (adj_term m c).trans ?_
  funext i
  rw [eq_ix2 i]
  exact adjTerm_read _ _ _ (i 0) (i 1)

/-! ## The feature operand -/

/-- The scale vector laid along every row of the feature matrix. -/
def scaleRows (W : FVec Ideal S128 .f32) : FVec Ideal S10000x128 .f32 :=
  broadcastInDim S10000x128 ![0, 1] bcast_S1x128_S10000x128_0_1 (broadcastInDim S1x128 ![1] bcast_S128_S1x128_1 W)

/-- The feature operand as one term over the features and the scales: the scaled features, narrowed, written over the
    first rows of a zero matrix. -/
def xsTerm (x : FVec Ideal S10000x128 .f32) (W : FVec Ideal S128 .f32) : FVec Ideal S10240x128 .bf16 :=
  Host.scatter scatter_S10240x128_S1_S10000x128_01_n_0_0 (fun _ b => b)
    (broadcastInDim S10240x128 ![] bcast_S_S10240x128 (constant (F := Ideal) S_ .bf16 0x0000#16))
    (broadcastInDim S1 ![] bcast_S_S1 (constantI S_ 32 0#32))
    (truncf .bf16 (mulf x (scaleRows W)) bitsLt_bf16_f32)

/-- The narrow zero constant is the extended real zero. -/
theorem ofBits_zero_bf16 : Ideal.ofBits .bf16 0x0000#16 = 0 := by simp [Ideal.ofBits, Ideal.ieee]

/-- The scales laid along the rows, at row r and feature f, are the scale of f. -/
theorem scaleRows_read (W : FVec Ideal S128 .f32) (r : Fin 10000) (f : Fin 128) :
    scaleRows W (ix2 r f) = W (ix1 f) := by
  unfold scaleRows
  refine (broadcastInDim_apply _ bcast_S1x128_S10000x128_0_1 _ (ix2 r f) (ix2 (0 : Fin 1) f) (fun a => match a with
    | ⟨0, _⟩ => by show 0 = if (1 : Nat) = 1 then 0 else r.val; rw [if_pos rfl]
    | ⟨1, _⟩ => by show f.val = if (128 : Nat) = 1 then 0 else f.val; rw [if_neg (by decide)])).trans ?_
  exact broadcastInDim_apply _ bcast_S128_S1x128_1 W (ix2 (0 : Fin 1) f) (ix1 f) (fun a => match a with
    | ⟨0, _⟩ => by show f.val = if (128 : Nat) = 1 then 0 else f.val; rw [if_neg (by decide)])

/-- The feature term at row r and feature f: the scaled feature for a node row, zero past the nodes. -/
theorem xsTerm_read (x : FVec Ideal S10000x128 .f32) (W : FVec Ideal S128 .f32) (r : Fin 10240) (f : Fin 128) :
    xsTerm x W (ix2 r f) = Cert.Spec.XsPadAt x W r f := by
  unfold xsTerm Cert.Spec.XsPadAt
  rw [scatter_set_rows_read (by decide : 10000 ≤ 10240) scatter_S10240x128_S1_S10000x128_01_n_0_0 rfl rfl rfl rfl _ _
    (by rfl)]
  by_cases h : r.val < 10000
  · rw [dif_pos h, dif_pos h, truncf_apply, mulf_apply, scaleRows_read]
  · rw [dif_neg h, dif_neg h]
    refine (broadcastInDim_apply _ bcast_S_S10240x128 _ (ix2 r f) ix0 (fun a => a.elim0)).trans ?_
    exact ofBits_zero_bf16

set_option maxHeartbeats 1000000 in
/-- The host lines before the region leave the feature term in the product's second operand. -/
theorem xs_term (c : Dev nD) :
    (V m c main_v22 : FVec Ideal S10240x128 .bf16)
      = xsTerm (m ((c : Thread nD τ).loc main_arg0)) (m ((c : Thread nD τ).loc main_arg1)) := by
  dsimp only [Gen.V, Gen.V0]
  simp only [Gen.hostOps0, List.flatten_cons, List.flatten_nil, List.append_nil]
  after_results
  rfl

/-- The product's second operand, as the region finds it, is the scaled features padded with zero rows. -/
theorem xs_value (c : Dev nD) :
    (V m c main_v22 : S10240x128.Idx → EReal)
      = Cert.Spec.XsPad (m ((c : Thread nD τ).loc main_arg0)) (m ((c : Thread nD τ).loc main_arg1)) := by
  refine (xs_term m c).trans ?_
  funext i
  rw [eq_ix2 i]
  exact xsTerm_read _ _ (i 0) (i 1)

end Cert.KernelIdeal.HostValue

end
-- ==== Proof.KernelValue.lean ====
/-
  The dense program's result array.

  The kernel's output block at block row mb is written back once, after the second half of the padded node axis:
  it then holds, at entry (p, q), the first-half product plus the second-half product of row 1024·mb + p of the
  padded adjacency with column q of the padded features. The ten blocks tile the padded result, so after the run
  the padded result array is that product at every entry; the host's final slice keeps its first 10000 rows, which
  is the dense form of the layer.
-/
import proofs.«431183_j73469710566062_3_alg».proof.Proof.Spec
import proofs.«431183_j73469710566062_3_alg».proof.Proof.KernelBody
import proofs.«431183_j73469710566062_3_alg».proof.Proof.KernelHost
import Idealize.ShloMosaic.Lib.Pipeline.Value
import Idealize.ShloMosaic.Lib.StableHlo.Run
import Idealize.ShloMosaic.Lib.Tactic

noncomputable section

open scoped BigOperators

open Idealize.ShloMosaic Idealize.ShloMosaic.TcCoe Idealize.SL.Sem
open Idealize.ShloMosaic.Pipeline (Dat)

namespace Cert.KernelIdeal.DenseValue

open Cert.KernelIdeal Cert.KernelIdeal.Gen Cert.KernelIdeal.Body Idealize.ShloMosaic.ValueIdx Cert.Spec

variable (m : (ℓ : Loc nD τ sig) → Buf (Elt Ideal) ℓ) (ρ : Dev nD → PrngReg)

/-! ## The padded product -/

/-- The product over the padded node axis at padded row r and feature f, first half then second half. -/
def KpadAt (x : A2 10000 128) (W : A1 128) (wt : A1 640000) (src dst : W1 640000) (r : Fin 10240) (f : Fin 128) : EReal :=
  (∑ k : Fin 5120, AdjAt wt src dst r (lo k) * XsPadAt x W (lo k) f)
    + ∑ k : Fin 5120, AdjAt wt src dst r (hi k) * XsPadAt x W (hi k) f

/-- The padded product as an array. -/
def Kpad (x : A2 10000 128) (W : A1 128) (wt : A1 640000) (src dst : W1 640000) : A2 10240 128 :=
  fun i => KpadAt x W wt src dst (i 0) (i 1)

/-- The dense form of the layer is the padded product's rows below 10000. -/
theorem Kat_eq_KpadAt (x : A2 10000 128) (W : A1 128) (wt : A1 640000) (src dst : W1 640000) (d : Fin 10000)
    (f : Fin 128) : Kat x W wt src dst d f = KpadAt x W wt src dst (up d) f := rfl

/-! ## The grid: which block each point is handed, and the point before an odd point -/

/-- The index maps over the grid: point t is block row t / 2 and half t % 2; the feature array is one block. -/
theorem idx_facts : ∀ t : Fin cfg0.N,
    win0_0.index t (0 : Fin 2) = t.val / 2 ∧ win0_0.index t (1 : Fin 2) = t.val % 2
    ∧ win0_1.index t (0 : Fin 2) = 0 ∧ win0_1.index t (1 : Fin 2) = 0
    ∧ win0_2.index t (0 : Fin 2) = t.val / 2 ∧ win0_2.index t (1 : Fin 2) = 0
    ∧ ((grid0.coords t) 1).val = t.val % 2 :=
  (by decide +kernel : ∀ t : Fin grid0.N, _)

/-- The point before t. -/
abbrev before (t : Fin cfg0.N) : Fin cfg0.N := ⟨t.val - 1, Nat.lt_of_le_of_lt (Nat.sub_le _ _) t.isLt⟩

/-- The adjacency block the body is handed at point t. -/
abbrev ablk (c : Dev nD) (t : Fin cfg0.N) : FVec Ideal S1024x5120 .bf16 := iblk m c 0 t
/-- The resident feature array as the body is handed it at point t. -/
abbrev xall (c : Dev nD) (t : Fin cfg0.N) : FVec Ideal S10240x128 .bf16 := iblk m c 1 t

/-- The adjacency block of point t at (p, k) is the adjacency at row 1024·(t / 2) + p, column 5120·(t % 2) + k. -/
theorem ablk_at (c : Dev nD) (t : Fin cfg0.N) (p : Fin 1024) (k : Fin 5120) (r cc : Fin 10240)
    (hr : r.val = 1024 * (t.val / 2) + p.val) (hc : cc.val = 5120 * (t.val % 2) + k.val) :
    ablk m c t (ix2 p k) = (V m c main_v15 : S10240x10240.Idx → EReal) (ix2 r cc) := by
  obtain ⟨e0, e1, -, -, -, -, -⟩ := idx_facts t
  have h : iblk m c 0 t (ix2 p k)
      = V m c (Pipeline.arrRef spec0 0) (((cfg0.win 0).blk t).view.emb (ix2 p k)) := by
    unfold iblk; rw [View.read_apply]; exact cast_eq _ _
  refine h.trans ?_
  refine congrArg (V m c main_v15) ?_
  funext a; apply Fin.ext
  match a with
  | ⟨0, _⟩ => show win0_0.index t (0 : Fin 2) * 1024 + 1 * p.val = r.val; omega
  | ⟨1, _⟩ => show win0_0.index t (1 : Fin 2) * 5120 + 1 * k.val = cc.val; omega

/-- The feature array the body is handed is the whole padded feature array. -/
theorem xall_at (c : Dev nD) (t : Fin cfg0.N) (r : Fin 10240) (q : Fin 128) :
    xall m c t (ix2 r q) = (V m c main_v22 : S10240x128.Idx → EReal) (ix2 r q) := by
  obtain ⟨-, -, e2, e3, -, -, -⟩ := idx_facts t
  have h : iblk m c 1 t (ix2 r q)
      = V m c (Pipeline.arrRef spec0 1) (((cfg0.win 1).blk t).view.emb (ix2 r q)) := by
    unfold iblk; rw [View.read_apply]; exact cast_eq _ _
  refine h.trans ?_
  refine congrArg (V m c main_v22) ?_
  funext a; apply Fin.ext
  match a with
  | ⟨0, _⟩ => show win0_1.index t (0 : Fin 2) * 10240 + 1 * r.val = r.val; omega
  | ⟨1, _⟩ => show win0_1.index t (1 : Fin 2) * 128 + 1 * q.val = q.val; omega

/-- The rows the body multiplies at grid point i, at (k, q): row 5120·(i 1) + k of the array it slices. -/
theorem chunk_at (i : grid0.Coords) (x1 : FVec Ideal S10240x128 .bf16) (k : Fin 5120) (q : Fin 128) (r : Fin 10240)
    (hr : r.val = 5120 * (i 1).val + k.val) : chunk (F := Ideal) i x1 (ix2 k q) = x1 (ix2 r q) := by
  show x1 ((Rect.unit (s := S10240x128) (k0_off1 i) S5120x128.size (k0_off1_inb i)).emb (ix2 k q)) = x1 (ix2 r q)
  refine congrArg x1 ?_
  funext a; apply Fin.ext
  have ho := k0_off1_eq i
  match a with
  | ⟨0, _⟩ =>
    show (k0_off1 i) 0 + 1 * k.val = r.val
    rw [ho]; show 5120 * (i 1).val + 1 * k.val = r.val; omega
  | ⟨1, _⟩ =>
    show (k0_off1 i) 1 + 1 * q.val = q.val
    rw [ho]; show 0 + 1 * q.val = q.val; omega

/-! ## What an odd point leaves in the output block -/

/-- After an even point the accumulator holds that point's product added to zero. -/
theorem acc_even (c : Dev nD) (t : Fin cfg0.N) (h0 : t.val % 2 = 0) :
    (outsAt0 m c t.val t.isLt).2
      = k0_pay2 (F := Ideal) (chunk (grid0.coords t) (xall m c t)) (ablk m c t) (k0_pay1 (F := Ideal)) := by
  have h1 : ¬ t.val % 2 = 1 := by omega
  rw [outsAt0_A m c t h0 h1]
  dsimp only
  exact acc_first (F := Ideal) c (grid0.coords t) (ms0_0 t) (hs0_0 t) (ms0_1 t) (hs0_1 t) (ms0_2 t) (hs0_2 t) scM0_0
    (Memref.isWhole_whole _) ((hcond0_0 t).mpr h0) (fun h => h1 ((hcond0_1 t).mp h)) (iblk m c 0 t) (iblk m c 1 t)

/-- After an odd point the output block holds that point's product added to what the even point before it left. -/
theorem out_odd (c : Dev nD) (t : Fin cfg0.N) (h1 : t.val % 2 = 1) :
    (outsAt0 m c t.val t.isLt).1
      = k0_pay2 (F := Ideal) (chunk (grid0.coords t) (xall m c t)) (ablk m c t)
          (k0_pay2 (F := Ideal) (chunk (grid0.coords (before t)) (xall m c (before t))) (ablk m c (before t))
            (k0_pay1 (F := Ideal))) := by
  have h0 : ¬ t.val % 2 = 0 := by omega
  have hb : (before t).val % 2 = 0 := by show (t.val - 1) % 2 = 0; omega
  rw [outsAt0_B m c t h0 h1]
  dsimp only
  refine (out_second (F := Ideal) c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2).trans ?_
  exact congrArg (k0_pay2 (F := Ideal) (chunk (grid0.coords t) (xall m c t)) (ablk m c t)) (acc_even m c (before t) hb)

/-- After an odd point t the output block holds, at entry (p, q), the padded product at row 1024·(t / 2) + p. -/
theorem out_entry (c : Dev nD) (t : Fin cfg0.N) (h1 : t.val % 2 = 1) (p : Fin 1024) (q : Fin 128) (r : Fin 10240)
    (hr : r.val = 1024 * (t.val / 2) + p.val) :
    (outsAt0 m c t.val t.isLt).1 (ix2 p q) = KpadAt (m ((c : Thread nD τ).loc main_arg0)) (m ((c : Thread nD τ).loc main_arg1)) (m ((c : Thread nD τ).loc main_arg2)) (m ((c : Thread nD τ).loc main_arg3)) (m ((c : Thread nD τ).loc main_arg4)) r q := by
  obtain ⟨-, -, -, -, -, -, ec⟩ := idx_facts t
  obtain ⟨-, -, -, -, -, -, ecb⟩ := idx_facts (before t)
  have hbv : (before t).val = t.val - 1 := rfl
  have hN : t.val < 20 := lt_of_lt_of_eq t.isLt (show cfg0.N = 20 from N_0)
  rw [out_odd m c t h1, pay_at, pay_at, zero_at, zero_add]
  unfold KpadAt
  have hlo : ∀ k : Fin 5120, ablk m c (before t) (ix2 p k) * chunk (F := Ideal) (grid0.coords (before t)) (xall m c (before t)) (ix2 k q)
      = AdjAt (m ((c : Thread nD τ).loc main_arg2)) (m ((c : Thread nD τ).loc main_arg3)) (m ((c : Thread nD τ).loc main_arg4)) r (lo k) * XsPadAt (m ((c : Thread nD τ).loc main_arg0)) (m ((c : Thread nD τ).loc main_arg1)) (lo k) q := by
    intro k
    rw [ablk_at m c (before t) p k r (lo k) (by rw [hbv]; omega) (by rw [hbv]; show k.val = 5120 * ((t.val - 1) % 2) + k.val; omega),
      chunk_at (grid0.coords (before t)) (xall m c (before t)) k q (lo k) (by rw [ecb, hbv]; show k.val = 5120 * ((t.val - 1) % 2) + k.val; omega),
      xall_at, Cert.KernelIdeal.HostValue.adj_value m c, Cert.KernelIdeal.HostValue.xs_value m c]
    rfl
  have hhi : ∀ k : Fin 5120, ablk m c t (ix2 p k) * chunk (F := Ideal) (grid0.coords t) (xall m c t) (ix2 k q)
      = AdjAt (m ((c : Thread nD τ).loc main_arg2)) (m ((c : Thread nD τ).loc main_arg3)) (m ((c : Thread nD τ).loc main_arg4)) r (hi k) * XsPadAt (m ((c : Thread nD τ).loc main_arg0)) (m ((c : Thread nD τ).loc main_arg1)) (hi k) q := by
    intro k
    rw [ablk_at m c t p k r (hi k) hr (by show 5120 + k.val = 5120 * (t.val % 2) + k.val; omega),
      chunk_at (grid0.coords t) (xall m c t) k q (hi k) (by rw [ec]; show 5120 + k.val = 5120 * (t.val % 2) + k.val; omega),
      xall_at, Cert.KernelIdeal.HostValue.adj_value m c, Cert.KernelIdeal.HostValue.xs_value m c]
    rfl
  rw [Finset.sum_congr rfl (fun k _ => hlo k), Finset.sum_congr rfl (fun k _ => hhi k)]

/-! ## From the blocks to the padded result array -/

/-- What an odd point t writes back is block t of the padded product. -/
theorem flushed_eq (c : Dev nD) (t : Fin cfg0.N) (hf : (cfg0.win 2).flush t = true) :
    (dats m 0 c).flushed 2 t = ((cfg0.win 2).blk t).view.read (Elt Ideal) (Kpad (m ((c : Thread nD τ).loc main_arg0)) (m ((c : Thread nD τ).loc main_arg1)) (m ((c : Thread nD τ).loc main_arg2)) (m ((c : Thread nD τ).loc main_arg3)) (m ((c : Thread nD τ).loc main_arg4))) := by
  have h1 : t.val % 2 = 1 := (flush0_2 t).mp hf
  obtain ⟨-, -, -, -, e4, e5, -⟩ := idx_facts t
  have hN : t.val < 20 := lt_of_lt_of_eq t.isLt (show cfg0.N = 20 from N_0)
  show (cfg0.win 2).cut (grid0.coords t) ((dats m 0 c).after 2 t) = _
  rw [after0_2]
  funext j
  have hp : (j 0).val < 1024 := lt_of_lt_of_le (j 0).isLt ((cfg0.win 2).xsize_le (grid0.coords t) 0)
  have hq : (j 1).val < 128 := lt_of_lt_of_le (j 1).isLt ((cfg0.win 2).xsize_le (grid0.coords t) 1)
  have hr : 1024 * (t.val / 2) + (j 0).val < 10240 := by omega
  -- the array side: block t of the padded product at j is the padded product at row 1024·(t / 2) + j₀, feature j₁
  rw [View.read_apply, cast_eq]
  have e0 : (((cfg0.win 2).blk t).view.emb j 0 : Fin 10240) = ⟨1024 * (t.val / 2) + (j 0).val, hr⟩ :=
    Fin.ext (by show win0_2.index t (0 : Fin 2) * 1024 + 1 * (j 0).val = 1024 * (t.val / 2) + (j 0).val; omega)
  have e1 : (((cfg0.win 2).blk t).view.emb j 1 : Fin 128) = ⟨(j 1).val, hq⟩ :=
    Fin.ext (by show win0_2.index t (1 : Fin 2) * 128 + 1 * (j 1).val = (j 1).val; omega)
  unfold Kpad
  rw [e0, e1]
  -- the block side: what the body left, read through the transfer's leading part, at the entry (j₀, j₁)
  have ej : (cfg0.win 2).xinj (grid0.coords t) j = ix2 (⟨(j 0).val, hp⟩ : Fin 1024) (⟨(j 1).val, hq⟩ : Fin 128) := by
    funext a; apply Fin.ext
    match a with
    | ⟨0, _⟩ => rfl
    | ⟨1, _⟩ => rfl
  show (outsAt0 m c t.val t.isLt).1 ((cfg0.win 2).xinj (grid0.coords t) j) = _
  rw [ej]
  exact out_entry m c t h1 ⟨(j 0).val, hp⟩ ⟨(j 1).val, hq⟩ ⟨1024 * (t.val / 2) + (j 0).val, hr⟩ rfl

/-- An index of the padded result is in point t's block when each coordinate is in the block's range. -/
theorem mem_blk (t : Fin cfg0.N) (i : S10240x128.Idx) :
    i ∈ ((cfg0.win 2).blk t).view.set ↔ ∀ a : Fin 2, win0_2.index t a * S1024x128.size a ≤ (i a).val
      ∧ (i a).val < win0_2.index t a * S1024x128.size a + S1024x128.size a := by
  show i ∈ ((View.whole main_v23).slice (win0_2.rect t)).set ↔ _
  rw [View.set_slice_whole, Rect.mem_set_unit]
  exact Iff.rfl

/-- Row r of the padded result lies in the block written back at the odd point 2·(r / 1024) + 1. -/
theorem cover (i : S10240x128.Idx) :
    ∃ t : Fin cfg0.N, (cfg0.win 2).flush t = true ∧ i ∈ ((cfg0.win 2).blk t).view.set := by
  have hi0 : (i 0).val < 10240 := (i 0).isLt
  have hi1 : (i 1).val < 128 := (i 1).isLt
  have hN : cfg0.N = 20 := N_0
  have ht : 2 * ((i 0).val / 1024) + 1 < cfg0.N := by rw [hN]; omega
  obtain ⟨-, -, -, -, e4, e5, -⟩ := idx_facts ⟨2 * ((i 0).val / 1024) + 1, ht⟩
  refine ⟨⟨2 * ((i 0).val / 1024) + 1, ht⟩, (flush0_2 _).mpr (by show (2 * ((i 0).val / 1024) + 1) % 2 = 1; omega), ?_⟩
  rw [mem_blk]
  have e4' : win0_2.index ⟨2 * ((i 0).val / 1024) + 1, ht⟩ (0 : Fin 2) = (2 * ((i 0).val / 1024) + 1) / 2 := e4
  intro a
  match a with
  | ⟨0, _⟩ =>
    show win0_2.index ⟨2 * ((i 0).val / 1024) + 1, ht⟩ (0 : Fin 2) * 1024 ≤ (i 0).val
      ∧ (i 0).val < win0_2.index ⟨2 * ((i 0).val / 1024) + 1, ht⟩ (0 : Fin 2) * 1024 + 1024
    rw [e4']; omega
  | ⟨1, _⟩ =>
    show win0_2.index ⟨2 * ((i 0).val / 1024) + 1, ht⟩ (1 : Fin 2) * 128 ≤ (i 1).val
      ∧ (i 1).val < win0_2.index ⟨2 * ((i 0).val / 1024) + 1, ht⟩ (1 : Fin 2) * 128 + 128
    rw [e5]; omega

/-- After the run the padded result array is the padded product. -/
theorem final (c : Dev nD) : (dats m 0 c).arrAt 2 cfg0.N = Kpad (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 2 (Kpad (m ((c : Thread nD τ).loc main_arg0)) (m ((c : Thread nD τ).loc main_arg1)) (m ((c : Thread nD τ).loc main_arg2)) (m ((c : Thread nD τ).loc main_arg3)) (m ((c : Thread nD τ).loc main_arg4))) (fun t hf => flushed_eq m c t hf) cover

/-! ## The host's final slice, and the run -/

/-- The result buffer after the host's slice of the padded result: the dense form of the layer. -/
theorem result_eq (c : Dev nD) :
    Pipeline.afterTail₀ cfgs (dats m) 0 (V0 m) [hostOps1] c main_v24 = K (m ((c : Thread nD τ).loc main_arg0)) (m ((c : Thread nD τ).loc main_arg1)) (m ((c : Thread nD τ).loc main_arg2)) (m ((c : Thread nD τ).loc main_arg3)) (m ((c : Thread nD τ).loc main_arg4)) := by
  unfold Pipeline.afterTail₀
  show StableHlo.after hostOps1 _ (Proc.devRef .tc main_v24) = _
  after_results
  have hw : Pipeline.withArrays (cfgs 0).spec c (V0 m c) (fun w => (dats m 0 c).arrAt w (cfgs 0).N) (Proc.devRef .tc main_v23)
      = Kpad (m ((c : Thread nD τ).loc main_arg0)) (m ((c : Thread nD τ).loc main_arg1)) (m ((c : Thread nD τ).loc main_arg2)) (m ((c : Thread nD τ).loc main_arg3)) (m ((c : Thread nD τ).loc main_arg4)) :=
    (Pipeline.withArrays_arr spec0 launch0.win.arr_inj c _ _ 2).trans (final m c)
  rw [hw]
  funext i
  rw [extractStridedSlice_apply ![0, 0] (Kpad (m ((c : Thread nD τ).loc main_arg0)) (m ((c : Thread nD τ).loc main_arg1)) (m ((c : Thread nD τ).loc main_arg2)) (m ((c : Thread nD τ).loc main_arg3)) (m ((c : Thread nD τ).loc main_arg4))) slices_S10240x128_S10000x128_0_0 i (ix2 (up (i 0)) (i 1))
    (fun a => match a with
      | ⟨0, _⟩ => (Nat.zero_add _).symm
      | ⟨1, _⟩ => (Nat.zero_add _).symm)]
  unfold Kpad K
  exact (Kat_eq_KpadAt _ _ _ _ _ (i 0) (i 1)).symm

/-- THE RUN of the dense program at the ideal instance: every weakly fair execution terminates with the result
    buffer at the dense form of the layer of the argument arrays, and the arguments unchanged. -/
theorem run : θ_run defs (onTc (τ := τ) (main (F := Ideal))) ⟨m, fun _ => 0, ρ⟩ fun r => ∀ c : Dev nD,
      r.2.mem ((c : Thread nD τ).loc main_v24) = K (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v24 (Pipeline.mem_restRefs_of main_v24 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.DenseValue

end
-- ==== Proof.RefValue.lean ====
/-
  The reference program computes the layer: its last stage, the accumulating scatter of the weighted gathered
  rows, read at node d and feature f, is the sum over the edges whose destination word is d of the scaled
  feature of the clamped source node times the edge's weight.

  Two reads carry the proof. The ROW GATHER: rows of a matrix [10000, 128] taken at a column of start words
  [640000, 1]; result element (e, f) is the matrix at row (word e read signed, clamped into the rows) and
  column f. The ROW SCATTER: updates [n, C] with one row index per update row; update (e, f) lands at
  (idx e read signed, f) when that is a row of the operand and is dropped otherwise, so element (r, c) collects
  the updates (e, c) over the edges e whose index is r. Between them every stage is elementwise or a
  broadcast and reads through at an index.
-/
import proofs.«431183_j73469710566062_3_alg».proof.Proof.Spec
import proofs.«431183_j73469710566062_3_alg».proof.Proof.RefRead
import proofs.«431183_j73469710566062_3_alg».proof.Proof.LibScatterRead
import Idealize.ShloMosaic.PureOps.Ideal.Laws

noncomputable section

open scoped BigOperators

namespace Cert.RefValue

open Idealize.ShloMosaic Idealize.ShloMosaic.ValueIdx

/-! ## The row gather read at an element -/

section RowGather
variable {α : Type}

/-- The row gather's dimension numbers, as a record: the row axis is collapsed and carries the start word, the
    column axis is the offset axis and is taken whole. -/
private abbrev rowGather
    (wf : GatherDims.WF ⟨2, ![10000, 128]⟩ ⟨2, ![640000, 1]⟩ ⟨2, ![640000, 128]⟩ [1] [0] [] [0] [] 1 ![1, 128]) :
    GatherDims ⟨2, ![10000, 128]⟩ ⟨2, ![640000, 1]⟩ ⟨2, ![640000, 128]⟩ where
  offsetDims := [1]
  collapsedSliceDims := [0]
  operandBatchingDims := []
  startIndicesBatchingDims := []
  startIndexMap := [0]
  indexVectorDim := 1
  sliceSizes := ![1, 128]
  wf := wf

/-- The row gather at element (e, f): the operand at the row the e-th start word names (read signed, clamped into
    the rows) and at column f. -/
private theorem rowGather_read
    (wf : GatherDims.WF ⟨2, ![10000, 128]⟩ ⟨2, ![640000, 1]⟩ ⟨2, ![640000, 128]⟩ [1] [0] [] [0] [] 1 ![1, 128])
    (x : (⟨2, ![10000, 128]⟩ : Shape).Idx → α) (idx : IVec ⟨2, ![640000, 1]⟩ 32)
    (e : Fin 640000) (f : Fin 128) :
    Host.gather (rowGather wf) x idx (ix2 e f) = x (ix2 (Cert.Spec.node (idx (ix2 e (0 : Fin 1)))) f) := by
  unfold Host.gather
  congr 1
  funext a
  refine Fin.ext ?_
  match a with
  | ⟨0, _⟩ =>
    -- the row axis: the clamped start word, no batch coordinate, no offset coordinate
    show (rowGather wf).start (ix2 e f) idx 0 + (rowGather wf).batchCoord (ix2 e f) 0
      + (rowGather wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather wf).startIndexMap from List.mem_singleton.mpr rfl)]
    have hsi : (rowGather wf).siIdx (ix2 e f) ⟨List.idxOf (0 : Fin 2) (rowGather wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- the column axis: no start word, no batch coordinate, the result's own column
    show (rowGather wf).start (ix2 e f) idx 1 + (rowGather wf).batchCoord (ix2 e f) 1
      + (rowGather wf).offCoord (ix2 e f) 1 = f.val
    rw [GatherDims.batchCoord_eq_zero _ _ _ List.not_mem_nil]
    have hs : (rowGather wf).start (ix2 e f) idx 1 = 0 := by
      unfold GatherDims.start
      rw [dif_neg (show ¬ (1 : Fin 2) ∈ ([0] : List (Fin 2)) from by decide)]
    have ho : (rowGather wf).offCoord (ix2 e f) 1 = f.val := rfl
    rw [hs, ho]
    omega

end RowGather

/-! ## The row scatter read at an element -/

section RowScatter
variable {R C n : Nat}

/-- The row scatter's dimension numbers, as a record. -/
private abbrev rowScatter (wf : ScatterDims.WF ⟨2, ![R, C]⟩ ⟨2, ![n, 1]⟩ ⟨2, ![n, C]⟩ [1] [0] [0] 1) :
    ScatterDims ⟨2, ![R, C]⟩ ⟨2, ![n, 1]⟩ ⟨2, ![n, C]⟩ where
  updateWindowDims := [1]
  insertedWindowDims := [0]
  scatterDimsToOperandDims := [0]
  indexVectorDim := 1
  wf := wf

variable (wf : ScatterDims.WF ⟨2, ![R, C]⟩ ⟨2, ![n, 1]⟩ ⟨2, ![n, C]⟩ [1] [0] [0] 1)
  (idx : IVec ⟨2, ![n, 1]⟩ 32) (j : (⟨2, ![n, C]⟩ : Shape).Idx)

private theorem row_start0 : (rowScatter wf).start j idx 0 = (idx (ix2 (j 0) (0 : Fin 1))).toInt := by
  unfold ScatterDims.start
  rw [dif_pos (show (0 : Fin 2) ∈ (rowScatter wf).scatterDimsToOperandDims from List.mem_singleton.mpr rfl)]
  congr 2
  funext b; refine Fin.ext ?_
  match b with
  | ⟨0, _⟩ => rfl
  | ⟨1, _⟩ => rfl

private theorem row_start1 : (rowScatter wf).start j idx 1 = 0 := by
  unfold ScatterDims.start
  rw [dif_neg (show ¬ (1 : Fin 2) ∈ ([0] : List (Fin 2)) from by decide)]

private theorem row_window0 : (rowScatter wf).window j 0 = 0 := by
  rfl

private theorem row_window1 : (rowScatter wf).window j 1 = (j 1).val := by
  rfl

/-- Where update j of the row scatter lands: at (r, c) exactly when its edge's index is r and its column is c. -/
private theorem row_lands (r : Fin R) (c : Fin C) :
    (rowScatter wf).resultIdx? j idx = some (ix2 r c)
      ↔ (idx (ix2 (j 0) (0 : Fin 1))).toInt = (r.val : ℤ) ∧ (j 1 : Fin C) = c := by
  rw [Cert.Lib.ScatterRead.resultIdx?_eq_some_iff, Fin.forall_fin_two, row_start0, row_start1, row_window0,
    row_window1]
  show (_ + ((0 : ℕ) : ℤ) = ((r.val : ℕ) : ℤ)) ∧ (0 + (((j 1 : Fin C).val : ℕ) : ℤ) = ((c.val : ℕ) : ℤ)) ↔ _
  constructor
  · rintro ⟨h0, h1⟩
    exact ⟨by omega, Fin.ext (by omega)⟩
  · rintro ⟨h0, h1⟩
    exact ⟨by omega, by rw [h1]; omega⟩

end RowScatter

/-- The row scatter-add at element (r, c): the operand's element plus the updates (e, c) over the edges e whose
    index word, read signed, is r. -/
private theorem scatterAdd_row_read {R C n : Nat} {φ : FTy} (d : ScatterDims ⟨2, ![R, C]⟩ ⟨2, ![n, 1]⟩ ⟨2, ![n, C]⟩)
    (h1 : d.updateWindowDims = [1]) (h2 : d.insertedWindowDims = [0]) (h3 : d.scatterDimsToOperandDims = [0])
    (h4 : d.indexVectorDim = 1)
    (x : Cert.Spec.A2 R C) (idx : IVec ⟨2, ![n, 1]⟩ 32) (upd : Cert.Spec.A2 n C) (r : Fin R) (c : Fin C) :
    Host.scatterAdd (F := Ideal) (φ := φ) d x idx upd (ix2 r c)
      = x (ix2 r c) + ∑ e ∈ Finset.univ.filter (fun e : Fin n => (idx (ix2 e (0 : Fin 1))).toInt = (r.val : ℤ)),
          upd (ix2 e c) := by
  obtain ⟨uw, iw, sd, iv, wf⟩ := d
  dsimp only at h1 h2 h3 h4
  subst h1 h2 h3 h4
  show Ideal.hostScatterAdd (rowScatter wf) x idx upd (ix2 r c) = _
  unfold Ideal.hostScatterAdd
  congr 1
  refine Finset.sum_nbij' (fun j => (j 0 : Fin n)) (fun e => ix2 e c) ?_ ?_ ?_ ?_ ?_
  · intro j hj
    exact Finset.mem_filter.mpr ⟨Finset.mem_univ _, ((row_lands wf idx j r c).mp (Finset.mem_filter.mp hj).2).1⟩
  · intro e he
    exact Finset.mem_filter.mpr
      ⟨Finset.mem_univ _, (row_lands wf idx (ix2 e c) r c).mpr ⟨(Finset.mem_filter.mp he).2, rfl⟩⟩
  · intro j hj
    have h1 := ((row_lands wf idx j r c).mp (Finset.mem_filter.mp hj).2).2
    rw [← h1]; exact (eq_ix2 j).symm
  · intro e _; rfl
  · intro j hj
    have h1 := ((row_lands wf idx j r c).mp (Finset.mem_filter.mp hj).2).2
    rw [← h1]; exact congrArg upd (eq_ix2 j)

/-! ## The stages between the two reads, at an index -/

/-- A word that is not negative is left alone by the normalisation. -/
private theorem norm_of_nonneg (N : Nat) (w : BitVec 32) (hw : 0 ≤ w.toInt) : Cert.Spec.norm N w = w := by
  unfold Cert.Spec.norm
  rw [if_neg]
  intro hlt
  have := BitVec.slt_iff_toInt_lt.mp hlt
  rw [BitVec.toInt_zero] at this
  omega

/-- The scaled features at (r, f): the feature times the scale of its column. -/
private theorem v2_read (x : Cert.Spec.A2 10000 128) (W : Cert.Spec.A1 128) (r : Fin 10000) (f : Fin 128) :
    Cert.ReferenceIdeal.Read.val_main_v2 (F := Ideal) x W (ix2 r f) = x (ix2 r f) * W (ix1 f) := by
  rw [Cert.ReferenceIdeal.Read.val_main_v2_apply, Cert.ReferenceIdeal.Read.val_main_v1_apply,
    Cert.ReferenceIdeal.Read.val_main_v0_apply]
  show x (ix2 r f) * W _ = _
  congr 2
  funext a
  match a with
  | ⟨0, _⟩ => rfl

/-- The column of start words at edge e: the source word itself, which is not negative on the domain. -/
private theorem v8_read (src : Cert.Spec.W1 640000) (e : Fin 640000) (hlo : 0 ≤ (src (ix1 e)).toInt) :
    Cert.ReferenceIdeal.Read.val_main_v8 (F := Ideal) src (ix2 e (0 : Fin 1)) = src (ix1 e) := by
  rw [Cert.ReferenceIdeal.Read.val_main_v8_apply]
  have hi : Cert.ReferenceIdeal.Read.idx_main_v8 (ix2 e (0 : Fin 1)) = ix1 e := by
    funext a
    match a with
    | ⟨0, _⟩ => rfl
  rw [hi]
  have hn := Cert.Lib.ScatterRead.norm_read Cert.ReferenceIdeal.Facts₀.bcast_S_S640000 src 10000 (ix1 e)
  rw [norm_of_nonneg _ _ hlo] at hn
  exact hn

/-- The broadcast weights at (e, f): the weight of edge e. -/
private theorem v11_read (wt : Cert.Spec.A1 640000) (e : Fin 640000) (f : Fin 128) :
    Cert.ReferenceIdeal.Read.val_main_v11 (F := Ideal) wt (ix2 e f) = wt (ix1 e) := by
  rw [Cert.ReferenceIdeal.Read.val_main_v11_apply, Cert.ReferenceIdeal.Read.val_main_v10_apply]
  congr 1
  funext a
  match a with
  | ⟨0, _⟩ => rfl

/-- The column of destination words at edge e: the destination word itself. -/
private theorem v14_read (dst : Cert.Spec.W1 640000) (e : Fin 640000) :
    Cert.ReferenceIdeal.Read.val_main_v14 (F := Ideal) dst (ix2 e (0 : Fin 1)) = dst (ix1 e) := by
  rw [Cert.ReferenceIdeal.Read.val_main_v14_apply]
  congr 1
  funext a
  match a with
  | ⟨0, _⟩ => rfl

/-- The weighted gathered rows at (e, f), on the domain: the scaled feature of the clamped source node of edge e
    times the edge's weight. -/
private theorem v12_read (x : Cert.Spec.A2 10000 128) (W : Cert.Spec.A1 128) (wt : Cert.Spec.A1 640000)
    (src : Cert.Spec.W1 640000) (e : Fin 640000) (f : Fin 128) (hlo : 0 ≤ (src (ix1 e)).toInt) :
    Cert.ReferenceIdeal.Read.val_main_v12 (F := Ideal) x W wt src (ix2 e f)
      = (x (ix2 (Cert.Spec.node (src (ix1 e))) f) * W (ix1 f)) * wt (ix1 e) := by
  rw [Cert.ReferenceIdeal.Read.val_main_v12_apply, v11_read]
  show Cert.ReferenceIdeal.Read.val_main_v9 (F := Ideal) x W src (ix2 e f) * _ = _
  congr 1
  unfold Cert.ReferenceIdeal.Read.val_main_v9
  show Host.gather (rowGather Cert.ReferenceIdeal.Facts₀.gather_S10000x128_S640000x1_S640000x128_1_0_n_n_0_1_1128_wf)
    _ _ (ix2 e f) = _
  rw [rowGather_read, v8_read src e hlo, v2_read]

/-- On the domain, the reference's result stage is the layer G of its arguments. -/
theorem ref_value (x : Cert.Spec.A2 10000 128) (W : Cert.Spec.A1 128) (wt : Cert.Spec.A1 640000)
    (src dst : Cert.Spec.W1 640000) (h : Cert.Spec.Dom x W wt src dst) :
    Cert.ReferenceIdeal.Read.val_main_v15 (F := Ideal) x W wt src dst = Cert.Spec.G x W wt src dst := by
  funext i
  obtain ⟨d, f, rfl⟩ : ∃ d f, i = ix2 d f := ⟨i 0, i 1, eq_ix2 i⟩
  unfold Cert.ReferenceIdeal.Read.val_main_v15
  rw [scatterAdd_row_read _ rfl rfl rfl rfl]
  -- the operand is the zero array
  rw [Cert.ReferenceIdeal.Read.val_main_v13_apply, Cert.ReferenceIdeal.Read.val_main_cst_apply]
  show Ideal.ofBits .f32 0x00000000#32 + _ = _
  rw [Ideal.ofBits_zero_f32, zero_add]
  show _ = Cert.Spec.Gat x W wt src dst d f
  unfold Cert.Spec.Gat
  -- the two sums run over the same edges and agree term by term
  refine Finset.sum_congr (Finset.filter_congr fun e _ => by rw [v14_read]) fun e _ => ?_
  exact v12_read x W wt src e f (h.src_lo (ix1 e))

end Cert.RefValue

end
-- ==== Proof.Bridge.lean ====
/-
  The dense form is the layer. On the domain every number is real, so the product of an adjacency entry (a sum of
  weights) with a feature distributes over the sum; an edge whose destination is d and whose source is a node s
  contributes to exactly one column s of row d; columns past the nodes meet zero feature rows; and the two halves
  of the padded axis together are the whole axis. Summing over columns first or over edges first is the same
  double sum.
-/
import proofs.«431183_j73469710566062_3_alg».proof.Proof.Spec

noncomputable section

open scoped BigOperators

namespace Cert.Bridge

open Idealize.ShloMosaic Idealize.ShloMosaic.ValueIdx Cert.Spec

/-- The coercion of the reals into the extended reals carries a finite sum to the sum of the coercions. -/
private theorem coe_sum {ι : Type} (s : Finset ι) (g : ι → ℝ) :
    ((∑ i ∈ s, g i : ℝ) : EReal) = ∑ i ∈ s, (g i : EReal) := by
  classical
  induction s using Finset.induction_on with
  | empty => rw [Finset.sum_empty, Finset.sum_empty, EReal.coe_zero]
  | insert a s ha ih => rw [Finset.sum_insert ha, Finset.sum_insert ha, EReal.coe_add, ih]

/-- Over the reals: a matrix row whose entry at column c is the total weight of the edges that satisfy P and sit in
    column c, multiplied into a vector and summed over all columns, is the sum over the edges that satisfy P of the
    edge's weight times the vector's entry at the edge's own column. Each edge lies in exactly one column, so the
    double sum over columns and edges is the single sum over edges. -/
private theorem sum_cols {E C : Type} [Fintype E] [Fintype C] [DecidableEq C] (P : E → Prop) [DecidablePred P]
    (col : E → C) (w : E → ℝ) (xs : C → ℝ) :
    ∑ c : C, (∑ e ∈ Finset.univ.filter (fun e => P e ∧ col e = c), w e) * xs c
      = ∑ e ∈ Finset.univ.filter P, w e * xs (col e) := by
  rw [← Finset.sum_fiberwise_of_maps_to (s := Finset.univ.filter P) (t := Finset.univ) (g := col)
    (fun _ _ => Finset.mem_univ _)]
  refine Finset.sum_congr rfl fun c _ => ?_
  rw [Finset.sum_mul, Finset.filter_filter]
  refine Finset.sum_congr rfl fun e he => ?_
  rw [(Finset.mem_filter.mp he).2.2]

/-- The first 5120 columns and the last 5120 columns are together all 10240 columns. -/
private theorem sum_halves {M : Type} [AddCommMonoid M] (g : Fin 10240 → M) :
    (∑ k : Fin 5120, g (lo k)) + ∑ k : Fin 5120, g (hi k) = ∑ c : Fin 10240, g c := by
  have h := Fin.sum_univ_add (a := 5120) (b := 5120) (fun c : Fin (5120 + 5120) => g c)
  exact h.symm

/-- A word that is not negative when read signed is left alone by the wrap. -/
private theorem norm_of_nonneg (N : Nat) (w : BitVec 32) (h : 0 ≤ w.toInt) : Spec.norm N w = w := by
  unfold Spec.norm
  rw [if_neg]
  rw [BitVec.slt_iff_toInt_lt]
  simp only [BitVec.toInt_zero]
  omega

/-- A word that names a node, read signed, is that node after the clamp. -/
private theorem node_val (w : BitVec 32) (h0 : 0 ≤ w.toInt) (h1 : w.toInt < 10000) :
    (node w).val = w.toInt.toNat := by
  unfold node
  simp only
  omega

/-- On the domain the dense form equals the layer, entry by entry. -/
theorem Kat_eq_Gat (x : A2 10000 128) (W : A1 128) (wt : A1 640000) (src dst : W1 640000)
    (h : Dom x W wt src dst) (d : Fin 10000) (f : Fin 128) :
    Kat x W wt src dst d f = Gat x W wt src dst d f := by
  obtain ⟨hx, hW, hwt, hslo, hshi, hdlo⟩ := h
  choose x' hx' using hx
  choose W' hW' using hW
  choose wt' hwt' using hwt
  -- the column of an edge: its source word, a node, read as a column of the padded axis
  have hcol : ∀ e : Fin 640000, (src (ix1 e)).toInt.toNat < 10240 := fun e => by
    have := hshi (ix1 e); have := hslo (ix1 e); omega
  let col : Fin 640000 → Fin 10240 := fun e => ⟨(src (ix1 e)).toInt.toNat, hcol e⟩
  -- the padded scaled feature column f over the reals
  let xs : Fin 10240 → ℝ := fun c =>
    if hc : c.val < 10000 then x' (ix2 (⟨c.val, hc⟩ : Fin 10000) f) * W' (ix1 f) else 0
  have hXs : ∀ c, XsPadAt x W c f = ((xs c : ℝ) : EReal) := by
    intro c
    unfold XsPadAt
    by_cases hc : c.val < 10000
    · rw [dif_pos hc, hx', hW', ← EReal.coe_mul]
      simp only [xs, dif_pos hc]
    · rw [dif_neg hc]
      simp only [xs, dif_neg hc, EReal.coe_zero]
  -- row d of the padded adjacency over the reals, its columns named through col
  have hAdj : ∀ c : Fin 10240, AdjAt wt src dst (up d) c
      = ((∑ e ∈ Finset.univ.filter (fun e : Fin 640000 => (dst (ix1 e)).toInt = (d.val : ℤ) ∧ col e = c),
          wt' (ix1 e) : ℝ) : EReal) := by
    intro c
    unfold AdjAt
    rw [coe_sum]
    refine Finset.sum_congr (Finset.filter_congr fun e _ => ?_) (fun e _ => hwt' _)
    rw [norm_of_nonneg _ _ (hdlo _), norm_of_nonneg _ _ (hslo _)]
    have h0 := hslo (ix1 e)
    have hu : ((up d).val : ℤ) = (d.val : ℤ) := rfl
    have hcv : (col e).val = (src (ix1 e)).toInt.toNat := rfl
    rw [hu, Fin.ext_iff, hcv]
    constructor
    · rintro ⟨h1, h2⟩; exact ⟨h1, by omega⟩
    · rintro ⟨h1, h2⟩; exact ⟨h1, by omega⟩
  -- the dense form as one real sum over all columns
  have hK : Kat x W wt src dst d f
      = ((∑ c : Fin 10240, (∑ e ∈ Finset.univ.filter
          (fun e : Fin 640000 => (dst (ix1 e)).toInt = (d.val : ℤ) ∧ col e = c), wt' (ix1 e)) * xs c : ℝ) : EReal) := by
    unfold Kat
    rw [coe_sum, ← sum_halves]
    simp only [hXs, hAdj, EReal.coe_mul]
  -- the layer as one real sum over the edges that end at d
  have hG : Gat x W wt src dst d f
      = ((∑ e ∈ Finset.univ.filter (fun e : Fin 640000 => (dst (ix1 e)).toInt = (d.val : ℤ)),
          wt' (ix1 e) * xs (col e) : ℝ) : EReal) := by
    unfold Gat
    rw [coe_sum]
    refine Finset.sum_congr rfl fun e _ => ?_
    have h0 := hslo (ix1 e)
    have h1 := hshi (ix1 e)
    have hc : (col e).val < 10000 := by
      have hcv : (col e).val = (src (ix1 e)).toInt.toNat := rfl
      omega
    have hn : node (src (ix1 e)) = (⟨(col e).val, hc⟩ : Fin 10000) := Fin.ext (node_val _ h0 h1)
    have hxs : xs (col e) = x' (ix2 (⟨(col e).val, hc⟩ : Fin 10000) f) * W' (ix1 f) := by
      simp only [xs, dif_pos hc]
    rw [hxs, hx', hW', hwt', ← EReal.coe_mul, ← EReal.coe_mul, hn, mul_comm]
  rw [hK, hG, sum_cols]

/-- On the domain the dense form equals the layer. -/
theorem K_eq_G (x : A2 10000 128) (W : A1 128) (wt : A1 640000) (src dst : W1 640000)
    (h : Dom x W wt src dst) : K x W wt src dst = G x W wt src dst :=
  funext fun i => Kat_eq_Gat x W wt src dst h (i 0) (i 1)

end Cert.Bridge

end
-- ==== Proof.PreFacts.lean ====
/-
  The precondition, decoded: where the printed predicate is all ones, the three float inputs hold real numbers,
  every source word lies in the node range, and no destination word is negative.
-/
import proofs.«431183_j73469710566062_3_alg».proof.Proof.Spec
import proofs.«431183_j73469710566062_3_alg».proof.Proof.Gen.Pre_finite_inputs
import Idealize.ShloMosaic.Lib.ReduceAll
import Idealize.ShloMosaic.Lib.StableHlo.Predicate

noncomputable section

namespace Cert.PreFacts

open Idealize.ShloMosaic Idealize.ShloMosaic.ValueIdx

/-- A rank-0 array has exactly one index. -/
private instance : Subsingleton Cert.Pre_finite_inputs.S_.Idx := ⟨fun _ _ => funext fun d => d.elim0⟩

/-- The 32-bit pattern with every exponent bit set, sign and fraction clear, denotes +∞. -/
private theorem inf_bits : Ideal.ofBits .f32 0x7F800000#32 = (⊤ : EReal) := by
  simp [Ideal.ofBits, Ideal.ieee]

/-- An extended real whose absolute value max v (-v) lies strictly below +∞ is a real number: at -∞ the negation
    is +∞, and at +∞ the value itself is, so neither infinity passes the comparison. -/
private theorem real_of_abs_lt (v : EReal)
    (hv : Ideal.cmp .olt (max v (-v)) (Ideal.ofBits .f32 0x7F800000#32) = 1#1) : ∃ r : ℝ, v = (r : EReal) := by
  rw [inf_bits] at hv
  induction v using EReal.rec with
  | bot => simp [Ideal.cmp] at hv
  | coe r => exact ⟨r, rfl⟩
  | top => simp [Ideal.cmp] at hv

/-- A signed "greater or equal" against the zero word that came out 1 says the word, read signed, is not negative. -/
private theorem nonneg_of_sge (a : BitVec 32) (ha : IntOp.cmpi .sge a 0#32 = 1#1) : 0 ≤ a.toInt := by
  simpa [IntOp.cmpi, BitVec.sle, StableHlo.Predicate.ofBool_eq_one_iff] using ha

/-- A signed "less than" against the word 10000 that came out 1 bounds the word, read signed, by 10000. -/
private theorem lt_of_slt (a : BitVec 32) (ha : IntOp.cmpi .slt a 10000#32 = 1#1) : a.toInt < 10000 := by
  simpa [IntOp.cmpi, BitVec.slt, StableHlo.Predicate.ofBool_eq_one_iff] using ha

/-- Where the printed precondition is all ones, its arguments lie in the domain of the specification. -/
theorem dom_of_pre (x : Cert.Spec.A2 10000 128) (W : Cert.Spec.A1 128) (wt : Cert.Spec.A1 640000)
    (src dst : Cert.Spec.W1 640000)
    (h : Cert.Pre_finite_inputs.fn (F := Ideal) x W wt src dst = fun _ => 1#1) :
    Cert.Spec.Dom x W wt src dst := by
  -- the predicate at its one index is a conjunction of six bits, each the "all" of an elementwise comparison
  have h0 := congrFun h ValueIdx.ix0
  dsimp only [Cert.Pre_finite_inputs.fn, Cert.Pre_finite_inputs.fn_part1] at h0
  obtain ⟨h1, hdlo⟩ := IntOp.andi_eq_one.1 h0
  obtain ⟨h2, hshi⟩ := IntOp.andi_eq_one.1 h1
  obtain ⟨h3, hslo⟩ := IntOp.andi_eq_one.1 h2
  obtain ⟨h4, hwt⟩ := IntOp.andi_eq_one.1 h3
  obtain ⟨hx, hW⟩ := IntOp.andi_eq_one.1 h4
  -- an "all" that is 1 had a 1 at every element; a scalar broadcast reads the scalar at every element
  refine ⟨fun i => ?_, fun i => ?_, fun i => ?_, fun i => ?_, fun i => ?_, fun i => ?_⟩
  · exact real_of_abs_lt _ (Host.reduce_andi_all _ _ _ _ _ hx i)
  · exact real_of_abs_lt _ (Host.reduce_andi_all _ _ _ _ _ hW i)
  · exact real_of_abs_lt _ (Host.reduce_andi_all _ _ _ _ _ hwt i)
  · exact nonneg_of_sge _ (Host.reduce_andi_all _ _ _ _ _ hslo i)
  · exact lt_of_slt _ (Host.reduce_andi_all _ _ _ _ _ hshi i)
  · exact nonneg_of_sge _ (Host.reduce_andi_all _ _ _ _ _ hdlo i)

end Cert.PreFacts

end
-- ==== Proof.lean ====
/-
  A graph convolution with a diagonal feature scale, computed two ways, gives the same layer.

  The reference gathers, for every edge, the scaled feature row of the edge's source node, multiplies it by the
  edge's weight, and adds it into the row of the edge's destination node. The kernel's program first accumulates the
  edge weights into a dense adjacency padded to 10240 rows and columns, pads the scaled features with zero rows, and
  multiplies the two in blocks of 1024 rows, summing the padded node axis in two halves into an accumulator; it
  keeps the first 10000 rows.

  The two agree where the index words name nodes: every source word in [0, 10000) and no destination word negative,
  with real features, scales and weights. There a gather clamps nothing, a wrap of a negative word never happens, a
  destination word past the nodes is dropped by both programs (the reference's scatter drops it; the kernel's lands in
  a padding row that the final slice removes, or outside the padded matrix), and a sum of weights times a feature
  distributes because all numbers are finite. Outside that domain the programs differ (a source word 10000 reads the
  last node's row in the reference and a zero padding row in the kernel), which is why the precondition states it.

  The pieces: the kernel's result array is the dense form K of its arguments (the body's accumulator over the two
  halves, the blocks tiling the padded result, the host's final slice); the reference's result is the layer G (its
  accumulating scatter and its gather read at an index); K = G on the domain (a double sum over columns and edges
  taken in the other order); and the precondition puts the arguments in the domain.
-/
import proofs.«431183_j73469710566062_3_alg».proof.Defs
import proofs.«431183_j73469710566062_3_alg».proof.Proof.Gen.Kernel
import proofs.«431183_j73469710566062_3_alg».proof.Proof.Gen.Kernel.Frame
import proofs.«431183_j73469710566062_3_alg».proof.Proof.Gen.KernelIdeal
import proofs.«431183_j73469710566062_3_alg».proof.Proof.Gen.KernelIdeal.Frame
import proofs.«431183_j73469710566062_3_alg».proof.Proof.Gen.ReferenceIdeal
import proofs.«431183_j73469710566062_3_alg».proof.Proof.Gen.Pre_finite_inputs
import proofs.«431183_j73469710566062_3_alg».proof.Proof.RefRead
import proofs.«431183_j73469710566062_3_alg».proof.Proof.KernelValue
import proofs.«431183_j73469710566062_3_alg».proof.Proof.RefValue
import proofs.«431183_j73469710566062_3_alg».proof.Proof.Bridge
import proofs.«431183_j73469710566062_3_alg».proof.Proof.PreFacts
import Idealize.ShloMosaic.Adequacy
import Idealize.ShloMosaic.Init

noncomputable section

namespace Cert.Proof

open Idealize.ShloMosaic Idealize.SL.Sem

/-- The kernel's program runs, and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments as they were: its run with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, under the precondition, the kernel's result array ends at the dense
    form K of the arguments and the reference's at the layer G of the same arguments; on the precondition's domain
    these are one array. -/
theorem algebraic : Cert.algebraic_KernelIdeal_ReferenceIdeal := by
  intro m ρ m' ρ' hpre hagree
  refine ⟨fun c => Cert.Spec.K (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), Cert.KernelIdeal.DenseValue.run m ρ, ?_⟩
  refine (θ_run Cert.ReferenceIdeal.defs _ _).mono (fun _ h c => ⟨(h c).1.trans ?_, (h c).2⟩)
    (Cert.ReferenceIdeal.Value.run (F := Ideal) m' ρ')
  have hd := Cert.PreFacts.dom_of_pre _ _ _ _ _ (hpre c)
  rw [(hagree c).1, (hagree c).2.1, (hagree c).2.2.1, (hagree c).2.2.2.1, (hagree c).2.2.2.2]
  exact ((Cert.ReferenceIdeal.Read.val_main_v15_eq _ _ _ _ _).trans (Cert.RefValue.ref_value _ _ _ _ _ hd)).trans
    (Cert.Bridge.K_eq_G _ _ _ _ _ hd).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
